-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S11008x4096 : Shape := ⟨2, ![11008, 4096]⟩
abbrev S11008 : Shape := ⟨1, ![11008]⟩
abbrev S11008x16 : Shape := ⟨2, ![11008, 16]⟩
abbrev S16x4096 : Shape := ⟨2, ![16, 4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S11008x4096 : S_.BroadcastsInDim S11008x4096 (![] : Fin 0 → Fin S11008x4096.rank)
  reducesTo_S11008x4096_S_d0_1 : S11008x4096.ReducesTo [0, 1] S_
  bcast_S_S11008 : S_.BroadcastsInDim S11008 (![] : Fin 0 → Fin S11008.rank)
  reducesTo_S11008_S_d0 : S11008.ReducesTo [0] S_
  bcast_S_S11008x16 : S_.BroadcastsInDim S11008x16 (![] : Fin 0 → Fin S11008x16.rank)
  reducesTo_S11008x16_S_d0_1 : S11008x16.ReducesTo [0, 1] S_
  bcast_S_S16x4096 : S_.BroadcastsInDim S16x4096 (![] : Fin 0 → Fin S16x4096.rank)
  reducesTo_S16x4096_S_d0_1 : S16x4096.ReducesTo [0, 1] S_

variable [Facts]

def fn_part1 {F : FTy → Type} [FloatOps F] (main_arg4 : FVec F S16x4096 .f32) (main_v13 : IVec S_ 1) (main_v16 : IVec S11008x16 1) : IVec S_ 1 :=
  let main_c_5 : IVec S_ 1 := constantI S_ 1 1#1
  let main_v17 : IVec S_ 1 := (fun x v => Host.reduce IntOp.andi x v reducesTo_S11008x16_S_d0_1 h_S_) main_v16 main_c_5
  let main_v18 : IVec S_ 1 := andi main_v13 main_v17
  let main_v19 : FVec F S16x4096 .f32 := Host.absf main_arg4
  let main_cst_6 : FVec F S_ .f32 := constant S_ .f32 0x7F800000#32
  let main_v20 : FVec F S16x4096 .f32 := broadcastInDim S16x4096 ![] bcast_S_S16x4096 main_cst_6
  let main_v21 : IVec S16x4096 1 := cmpf .olt main_v19 main_v20
  let main_c_7 : IVec S_ 1 := constantI S_ 1 1#1
  let main_v22 : IVec S_ 1 := (fun x v => Host.reduce IntOp.andi x v reducesTo_S16x4096_S_d0_1 h_S_) main_v21 main_c_7
  let main_v23 : IVec S_ 1 := andi main_v18 main_v22
  main_v23

def fn {F : FTy → Type} [FloatOps F] (main_arg0 : FVec F S8192x4096 .f32) (main_arg1 : FVec F S11008x4096 .f32) (main_arg2 : FVec F S11008 .f32) (main_arg3 : FVec F S11008x16 .f32) (main_arg4 : FVec F S16x4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S11008x4096 .f32 := Host.absf main_arg1
  let main_cst_0 : FVec F S_ .f32 := constant S_ .f32 0x7F800000#32
  let main_v5 : FVec F S11008x4096 .f32 := broadcastInDim S11008x4096 ![] bcast_S_S11008x4096 main_cst_0
  let main_v6 : IVec S11008x4096 1 := cmpf .olt main_v4 main_v5
  let main_c_1 : IVec S_ 1 := constantI S_ 1 1#1
  let main_v7 : IVec S_ 1 := (fun x v => Host.reduce IntOp.andi x v reducesTo_S11008x4096_S_d0_1 h_S_) main_v6 main_c_1
  let main_v8 : IVec S_ 1 := andi main_v3 main_v7
  let main_v9 : FVec F S11008 .f32 := Host.absf main_arg2
  let main_cst_2 : FVec F S_ .f32 := constant S_ .f32 0x7F800000#32
  let main_v10 : FVec F S11008 .f32 := broadcastInDim S11008 ![] bcast_S_S11008 main_cst_2
  let main_v11 : IVec S11008 1 := cmpf .olt main_v9 main_v10
  let main_c_3 : IVec S_ 1 := constantI S_ 1 1#1
  let main_v12 : IVec S_ 1 := (fun x v => Host.reduce IntOp.andi x v reducesTo_S11008_S_d0 h_S_) main_v11 main_c_3
  let main_v13 : IVec S_ 1 := andi main_v8 main_v12
  let main_v14 : FVec F S11008x16 .f32 := Host.absf main_arg3
  let main_cst_4 : FVec F S_ .f32 := constant S_ .f32 0x7F800000#32
  let main_v15 : FVec F S11008x16 .f32 := broadcastInDim S11008x16 ![] bcast_S_S11008x16 main_cst_4
  let main_v16 : IVec S11008x16 1 := cmpf .olt main_v14 main_v15
  fn_part1 (F := F) main_arg4 main_v13 main_v16
-- ==== Kernel.lean ====
abbrev S8192x4096 : Shape := ⟨2, ![8192, 4096]⟩
abbrev S11008x4096 : Shape := ⟨2, ![11008, 4096]⟩
abbrev S11008 : Shape := ⟨1, ![11008]⟩
abbrev S11008x16 : Shape := ⟨2, ![11008, 16]⟩
abbrev S16x4096 : Shape := ⟨2, ![16, 4096]⟩
abbrev S1x11008 : Shape := ⟨2, ![1, 11008]⟩
abbrev S8192x11008 : Shape := ⟨2, ![8192, 11008]⟩
abbrev S4096x512 : Shape := ⟨2, ![4096, 512]⟩
abbrev S256x512 : Shape := ⟨2, ![256, 512]⟩
abbrev S1x256 : Shape := ⟨2, ![1, 256]⟩
abbrev S256x16 : Shape := ⟨2, ![256, 16]⟩
abbrev S16x512 : Shape := ⟨2, ![16, 512]⟩
abbrev S4096x256 : Shape := ⟨2, ![4096, 256]⟩
abbrev S4096x16 : Shape := ⟨2, ![4096, 16]⟩
abbrev S512x256 : Shape := ⟨2, ![512, 256]⟩
abbrev S512x16 : Shape := ⟨2, ![512, 16]⟩
abbrev S16x256 : Shape := ⟨2, ![16, 256]⟩

abbrev nBuf : Space → Nat
  | .hbm => 7
  | .vmem => 14
  | .smem => 0
  | _ => 0

abbrev bufTy : (tb : Table) → Fin (tcTables nBuf tb) → BufTy
  | .hbm, ⟨0, _⟩ => ⟨S8192x4096, .f32⟩
  | .hbm, ⟨1, _⟩ => ⟨S11008x4096, .f32⟩
  | .hbm, ⟨2, _⟩ => ⟨S11008, .f32⟩
  | .hbm, ⟨3, _⟩ => ⟨S11008x16, .f32⟩
  | .hbm, ⟨4, _⟩ => ⟨S16x4096, .f32⟩
  | .hbm, ⟨5, _⟩ => ⟨S1x11008, .f32⟩
  | .hbm, ⟨6, _⟩ => ⟨S8192x11008, .f32⟩
  | .local _ .vmem, ⟨0, _⟩ => ⟨S4096x512, .f32⟩
  | .local _ .vmem, ⟨1, _⟩ => ⟨S4096x512, .f32⟩
  | .local _ .vmem, ⟨2, _⟩ => ⟨S256x512, .f32⟩
  | .local _ .vmem, ⟨3, _⟩ => ⟨S256x512, .f32⟩
  | .local _ .vmem, ⟨4, _⟩ => ⟨S1x256, .f32⟩
  | .local _ .vmem, ⟨5, _⟩ => ⟨S1x256, .f32⟩
  | .local _ .vmem, ⟨6, _⟩ => ⟨S256x16, .f32⟩
  | .local _ .vmem, ⟨7, _⟩ => ⟨S256x16, .f32⟩
  | .local _ .vmem, ⟨8, _⟩ => ⟨S16x512, .f32⟩
  | .local _ .vmem, ⟨9, _⟩ => ⟨S16x512, .f32⟩
  | .local _ .vmem, ⟨10, _⟩ => ⟨S4096x256, .f32⟩
  | .local _ .vmem, ⟨11, _⟩ => ⟨S4096x256, .f32⟩
  | .local _ .vmem, ⟨12, _⟩ => ⟨S4096x256, .f32⟩
  | .local _ .vmem, ⟨13, _⟩ => ⟨S4096x16, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 43, 8], ![false, false, false]⟩

def k0_cond2 (i : grid0.Coords) : BitVec 1 :=
  let arg2 : BitVec 32 := BitVec.ofNat 32 (i 2).val
  let c7_i32 : BitVec 32 := 7#32
  let v23 : BitVec 1 := Scalar.cmpi .eq arg2 c7_i32
  let v24 : BitVec 32 := Scalar.extui v23
  let c0_i32_15 : BitVec 32 := 0#32
  let v25 : BitVec 1 := Scalar.cmpi .ne v24 c0_i32_15
  v25

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S256x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S16x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S4096x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

class Facts₀ : Prop where
  shapeCasts_S11008_S1x11008 : S11008.ShapeCasts S1x11008
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  inb_S4096x16_S4096x16_0_0 : ∀ a, (![0, 0] : Fin 2 → Nat) a + S4096x16.size a ≤ S4096x16.size a
  h_S4096x16 : 0 < S4096x16.numel
  shapeCasts_S4096x16_S4096x16 : S4096x16.ShapeCasts S4096x16
  inb_S4096x512_S4096x512_0_0 : ∀ a, (![0, 0] : Fin 2 → Nat) a + S4096x512.size a ≤ S4096x512.size a
  h_S4096x512 : 0 < S4096x512.numel
  bitsLt_bf16_f32 : FTy.bits .bf16 < FTy.bits .f32
  inb_S256x512_S256x512_0_0 : ∀ a, (![0, 0] : Fin 2 → Nat) a + S256x512.size a ≤ S256x512.size a
  h_S256x512 : 0 < S256x512.numel
  inb_S16x512_S16x512_0_0 : ∀ a, (![0, 0] : Fin 2 → Nat) a + S16x512.size a ≤ S16x512.size a
  h_S16x512 : 0 < S16x512.numel
  transposes_S256x512_p1_0_S512x256 : S256x512.Transposes [1, 0] S512x256
  transposes_S16x512_p1_0_S512x16 : S16x512.Transposes [1, 0] S512x16
  inb_S256x16_S256x16_0_0 : ∀ a, (![0, 0] : Fin 2 → Nat) a + S256x16.size a ≤ S256x16.size a
  h_S256x16 : 0 < S256x16.numel
  transposes_S256x16_p1_0_S16x256 : S256x16.Transposes [1, 0] S16x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4096x256 : S1x256.Broadcasts S4096x256
  dot_S4096x512_S512x256_S4096x256_1_0_0_1_n_n_wf : DotDims.WF S4096x512 S512x256 S4096x256 [1] [0] [0] [1] [] []
  dot_S4096x512_S512x16_S4096x16_1_0_0_1_n_n_wf : DotDims.WF S4096x512 S512x16 S4096x16 [1] [0] [0] [1] [] []
  dot_S4096x16_S16x256_S4096x256_1_0_0_1_n_n_wf : DotDims.WF S4096x16 S16x256 S4096x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x512.size a ≤ S8192x4096.size a
  hwx0_0 : ∀ i : grid0.Coords, EltTy.bits .f32 = 32 ∨ (Rect.block (s := S8192x4096) S4096x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S11008x4096.size a
  hwx0_1 : ∀ i : grid0.Coords, EltTy.bits .f32 = 32 ∨ (Rect.block (s := S11008x4096) S256x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x11008.size a
  hwx0_2 : ∀ i : grid0.Coords, EltTy.bits .f32 = 32 ∨ (Rect.block (s := S1x11008) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x16.size a ≤ S11008x16.size a
  hwx0_3 : ∀ i : grid0.Coords, EltTy.bits .f32 = 32 ∨ (Rect.block (s := S11008x16) S256x16.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S16x512.size a ≤ S16x4096.size a
  hwx0_4 : ∀ i : grid0.Coords, EltTy.bits .f32 = 32 ∨ (Rect.block (s := S16x4096) S16x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4096x256.size a ≤ S8192x11008.size a
  hwx0_5 : ∀ i : grid0.Coords, EltTy.bits .f32 = 32 ∨ (Rect.block (s := S8192x11008) S4096x256.size (cc0_transform_5 i) (hinb0_5 i)).WholeWords (EltTy.packing .f32)

variable [Facts₀]

def dot_S4096x512_S512x256_S4096x256_1_0_0_1_n_n : DotDims S4096x512 S512x256 S4096x256 where
  lhsContracting := [1]
  rhsContracting := [0]
  lhsNonContracting := [0]
  rhsNonContracting := [1]
  lhsBatch := []
  rhsBatch := []
  wf := dot_S4096x512_S512x256_S4096x256_1_0_0_1_n_n_wf
def dot_S4096x512_S512x16_S4096x16_1_0_0_1_n_n : DotDims S4096x512 S512x16 S4096x16 where
  lhsContracting := [1]
  rhsContracting := [0]
  lhsNonContracting := [0]
  rhsNonContracting := [1]
  lhsBatch := []
  rhsBatch := []
  wf := dot_S4096x512_S512x16_S4096x16_1_0_0_1_n_n_wf
def dot_S4096x16_S16x256_S4096x256_1_0_0_1_n_n : DotDims S4096x16 S16x256 S4096x256 where
  lhsContracting := [1]
  rhsContracting := [0]
  lhsNonContracting := [0]
  rhsNonContracting := [1]
  lhsBatch := []
  rhsBatch := []
  wf := dot_S4096x16_S16x256_S4096x256_1_0_0_1_n_n_wf

abbrev win0_0 : Pipeline.Window sig grid0 :=
  Pipeline.Window.ofSpec (Memref.whole main_arg0) S4096x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x16.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S16x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1) S4096x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S8192x4096 : Shape := ⟨2, ![8192, 4096]⟩
abbrev S11008x4096 : Shape := ⟨2, ![11008, 4096]⟩
abbrev S11008 : Shape := ⟨1, ![11008]⟩
abbrev S11008x16 : Shape := ⟨2, ![11008, 16]⟩
abbrev S16x4096 : Shape := ⟨2, ![16, 4096]⟩
abbrev S4096x11008 : Shape := ⟨2, ![4096, 11008]⟩
abbrev S8192x11008 : Shape := ⟨2, ![8192, 11008]⟩
abbrev S1x11008 : Shape := ⟨2, ![1, 11008]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S11008x4096, .f32⟩
  | .hbm, ⟨2, _⟩ => ⟨S11008, .f32⟩
  | .hbm, ⟨3, _⟩ => ⟨S11008x16, .f32⟩
  | .hbm, ⟨4, _⟩ => ⟨S16x4096, .f32⟩
  | .hbm, ⟨5, _⟩ => ⟨S11008x4096, .f32⟩
  | .hbm, ⟨6, _⟩ => ⟨S4096x11008, .f32⟩
  | .hbm, ⟨7, _⟩ => ⟨S8192x11008, .f32⟩
  | .hbm, ⟨8, _⟩ => ⟨S1x11008, .f32⟩
  | .hbm, ⟨9, _⟩ => ⟨S8192x11008, .f32⟩
  | .hbm, ⟨10, _⟩ => ⟨S8192x11008, .f32⟩
  | .hbm, ⟨11, _⟩ => ⟨S4096x11008, .f32⟩
  | .hbm, ⟨12, _⟩ => ⟨S8192x11008, .f32⟩
  | .hbm, ⟨13, _⟩ => ⟨S_, .f32⟩
  | .hbm, ⟨14, _⟩ => ⟨S8192x11008, .f32⟩
  | .hbm, ⟨15, _⟩ => ⟨S8192x11008, .f32⟩
  | .hbm, ⟨16, _⟩ => ⟨S8192x11008, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩

abbrev nD : Nat := 1
abbrev τ : Topo := Topo.v7x

variable {F : FTy → Type} [FloatOps F]

class Facts₀ : Prop where
  transposes_S11008x4096_S4096x11008_1_0 : S11008x4096.Transposes [1, 0] S4096x11008
  bcast_S11008_S1x11008_1 : S11008.BroadcastsInDim S1x11008 (![1] : Fin 1 → Fin S1x11008.rank)
  bcast_S1x11008_S8192x11008_0_1 : S1x11008.BroadcastsInDim S8192x11008 (![0, 1] : Fin 2 → Fin S8192x11008.rank)
  bcast_S_S8192x11008 : S_.BroadcastsInDim S8192x11008 (![] : Fin 0 → Fin S8192x11008.rank)
  dot_S11008x16_S16x4096_S11008x4096_1_0_0_1_n_n_wf : DotDims.WF S11008x16 S16x4096 S11008x4096 [1] [0] [0] [1] [] []
  dot_S8192x4096_S4096x11008_S8192x11008_1_0_0_1_n_n_wf : DotDims.WF S8192x4096 S4096x11008 S8192x11008 [1] [0] [0] [1] [] []

variable [Facts₀]

def dot_S11008x16_S16x4096_S11008x4096_1_0_0_1_n_n : DotDims S11008x16 S16x4096 S11008x4096 where
  lhsContracting := [1]
  rhsContracting := [0]
  lhsNonContracting := [0]
  rhsNonContracting := [1]
  lhsBatch := []
  rhsBatch := []
  wf := dot_S11008x16_S16x4096_S11008x4096_1_0_0_1_n_n_wf
def dot_S8192x4096_S4096x11008_S8192x11008_1_0_0_1_n_n : DotDims S8192x4096 S4096x11008 S8192x11008 where
  lhsContracting := [1]
  rhsContracting := [0]
  lhsNonContracting := [0]
  rhsNonContracting := [1]
  lhsBatch := []
  rhsBatch := []
  wf := dot_S8192x4096_S4096x11008_S8192x11008_1_0_0_1_n_n_wf

class Facts : Prop extends Facts₀ where

variable [Facts]
-- ==== Proof.Algebra.lean ====
/-
  The algebra behind the low-rank layer, over abstract finite index types and free of any program.

  Three facts are proved here.

  * A sum of real numbers, read in the extended reals, is the sum of the summands read there.
  * REGROUPING THE LOW-RANK PRODUCT.  For real families f (a row of the input), a (the down
    projection) and b (a row of the up projection),
        sum over r of (sum over k of f k * a r k) * b r  =  sum over k of f k * (sum over r of b r * a r k).
    Both sides are the same finite double sum of the real products f k * a r k * b r; over the extended
    reals the identity needs every entry finite, because multiplication does not distribute over a sum
    that contains infinities of both signs.
  * CUTTING A LONG SUM INTO BLOCKS.  In any commutative additive monoid, a sum over 4096 consecutive
    naturals is the sum over 8 blocks of the sums over the 512 entries of each block.
-/
import Idealize.ShloMosaic.PureOps.Ideal

noncomputable section

open scoped BigOperators

namespace Cert.LowRank

/-- The coercion from the reals to the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Regrouping the low-rank product, for finite entries: projecting the row `f` down through `a` and
    then up through `b` equals contracting `f` with the product matrix `k ↦ ∑ r, b r * a r k`. -/
theorem regroup {K R : Type*} [Fintype K] [Fintype R] (f : K → ℝ) (a : R → K → ℝ) (b : R → ℝ) :
    (∑ r : R, (∑ k : K, (f k : EReal) * (a r k : EReal)) * (b r : EReal))
      = ∑ k : K, (f k : EReal) * (∑ r : R, (b r : EReal) * (a r k : EReal)) := by
  have hl : ∀ r : R, (∑ k : K, (f k : EReal) * (a r k : EReal)) * (b r : EReal)
      = ((∑ k : K, f k * a r k * b r : ℝ) : EReal) := fun r => by
    rw [← Finset.sum_mul]
    rw [EReal.coe_mul, coe_sum]
    exact congrArg (· * (b r : EReal)) (Finset.sum_congr rfl fun k _ => (EReal.coe_mul _ _).symm)
  have hr : ∀ k : K, (f k : EReal) * (∑ r : R, (b r : EReal) * (a r k : EReal))
      = ((∑ r : R, f k * a r k * b r : ℝ) : EReal) := fun k => by
    have : (∑ r : R, f k * a r k * b r : ℝ) = f k * ∑ r : R, b r * a r k := by
      rw [Finset.mul_sum]; exact Finset.sum_congr rfl fun r _ => by ring
    rw [this, EReal.coe_mul, coe_sum]
    exact congrArg ((f k : EReal) * ·) (Finset.sum_congr rfl fun r _ => (EReal.coe_mul _ _).symm)
  rw [Finset.sum_congr rfl fun r _ => hl r, Finset.sum_congr rfl fun k _ => hr k, ← coe_sum, ← coe_sum,
    Finset.sum_comm]

/-- A sum over the naturals below `8 * 512` is the sum, over the eight blocks, of each block's 512 entries. -/
theorem sum_blocks {M : Type*} [AddCommMonoid M] (g : ℕ → M) :
    (∑ s ∈ Finset.range 8, ∑ kk : Fin 512, g (512 * s + kk.val)) = ∑ k : Fin 4096, g k.val := by
  rw [← Fin.sum_univ_eq_sum_range (fun s => ∑ kk : Fin 512, g (512 * s + kk.val)) 8]
  rw [← Fintype.sum_prod_type']
  rw [← Equiv.sum_comp (finProdFinEquiv (m := 8) (n := 512)) (fun k : Fin (8 * 512) => g k.val)]
  refine Finset.sum_congr rfl fun x _ => ?_
  show g (512 * x.1.val + x.2.val) = g (x.2.val + 512 * x.1.val)
  rw [Nat.add_comm]

end Cert.LowRank

end
-- ==== Proof.Spec.lean ====
/-
  WHAT THE LOW-RANK LAYER COMPUTES, index by index, over the extended reals.

  For an input x [8192, 4096], a frozen weight W [11008, 4096], a bias [11008], an up projection
  B [11008, 16] and a down projection A [16, 4096], the entry (p, q) of the result is

      (sum over k of x[p,k] * W[q,k]  +  bias[q])  +  (low-rank term at (p, q)) * 2

  where the low-rank term is grouped in one of two ways:

  * `kernelForm`: project the row of x down first, then up:
        sum over r of (sum over k of x[p,k] * A[r,k]) * B[q,r];
  * `referenceForm`: form the full-rank product B·A first, then contract the row of x with it:
        sum over k of x[p,k] * (sum over r of B[q,r] * A[r,k]).

  The two groupings agree as soon as x, A and B hold only finite numbers (`forms_eq`); the dense
  term, the bias and the factor 2 are literally the same on both sides, so W and the bias may hold
  anything.
-/
import Idealize.ShloMosaic.Lib.ValueIdx
import proofs.«144183_j44006234915015_1_alg».proof.Proof.Algebra

noncomputable section

open scoped BigOperators

namespace Cert.LowRank

open Idealize.ShloMosaic Idealize.ShloMosaic.ValueIdx

/-- The shapes of the five arguments and of the result. -/
abbrev SX : Shape := ⟨2, ![8192, 4096]⟩
abbrev SW : Shape := ⟨2, ![11008, 4096]⟩
abbrev Sb : Shape := ⟨1, ![11008]⟩
abbrev SB : Shape := ⟨2, ![11008, 16]⟩
abbrev SA : Shape := ⟨2, ![16, 4096]⟩
abbrev SO : Shape := ⟨2, ![8192, 11008]⟩

/-- The scaling factor alpha / r = 32 / 16, as the f32 word both programs carry. -/
abbrev two : EReal := Ideal.ofBits .f32 0x40000000#32

/-- Row `p` of `x` against row `q` of `W`: entry (p, q) of x·Wᵀ. -/
def dense (x : SX.Idx → EReal) (W : SW.Idx → EReal) (p : Fin 8192) (q : Fin 11008) : EReal :=
  ∑ k : Fin 4096, x (ix2 p k) * W (ix2 q k)

/-- Row `p` of `x` projected down onto direction `r`: entry (p, r) of x·Aᵀ. -/
def down (x : SX.Idx → EReal) (A : SA.Idx → EReal) (p : Fin 8192) (r : Fin 16) : EReal :=
  ∑ k : Fin 4096, x (ix2 p k) * A (ix2 r k)

/-- The low-rank term, projected down and then up. -/
def lowDownUp (x : SX.Idx → EReal) (B : SB.Idx → EReal) (A : SA.Idx → EReal) (p : Fin 8192) (q : Fin 11008) : EReal :=
  ∑ r : Fin 16, down x A p r * B (ix2 q r)

/-- The low-rank term through the full-rank product B·A. -/
def lowFull (x : SX.Idx → EReal) (B : SB.Idx → EReal) (A : SA.Idx → EReal) (p : Fin 8192) (q : Fin 11008) : EReal :=
  ∑ k : Fin 4096, x (ix2 p k) * (∑ r : Fin 16, B (ix2 q r) * A (ix2 r k))

/-- Entry (p, q) of the layer with the low-rank term projected down and then up. -/
def kernelAt (x : SX.Idx → EReal) (W : SW.Idx → EReal) (b : Sb.Idx → EReal) (B : SB.Idx → EReal) (A : SA.Idx → EReal)
    (p : Fin 8192) (q : Fin 11008) : EReal :=
  (dense x W p q + b (ix1 q)) + lowDownUp x B A p q * two

/-- Entry (p, q) of the layer with the low-rank term through the full-rank product. -/
def referenceAt (x : SX.Idx → EReal) (W : SW.Idx → EReal) (b : Sb.Idx → EReal) (B : SB.Idx → EReal) (A : SA.Idx → EReal)
    (p : Fin 8192) (q : Fin 11008) : EReal :=
  (dense x W p q + b (ix1 q)) + lowFull x B A p q * two

/-- The layer with the low-rank term projected down and then up, as a function of the result's index. -/
def kernelForm (x : SX.Idx → EReal) (W : SW.Idx → EReal) (b : Sb.Idx → EReal) (B : SB.Idx → EReal) (A : SA.Idx → EReal) :
    SO.Idx → EReal :=
  fun i => kernelAt x W b B A ⟨(i 0).val, idx2_lt0 i⟩ ⟨(i 1).val, idx2_lt1 i⟩

/-- The layer with the low-rank term through the full-rank product, as a function of the result's index. -/
def referenceForm (x : SX.Idx → EReal) (W : SW.Idx → EReal) (b : Sb.Idx → EReal) (B : SB.Idx → EReal) (A : SA.Idx → EReal) :
    SO.Idx → EReal :=
  fun i => referenceAt x W b B A ⟨(i 0).val, idx2_lt0 i⟩ ⟨(i 1).val, idx2_lt1 i⟩

/-- At an index given by its coordinates the forms are the entries. -/
theorem kernelForm_ix2 (x : SX.Idx → EReal) (W : SW.Idx → EReal) (b : Sb.Idx → EReal) (B : SB.Idx → EReal) (A : SA.Idx → EReal)
    (p : Fin 8192) (q : Fin 11008) : kernelForm x W b B A (ix2 p q) = kernelAt x W b B A p q := rfl
theorem referenceForm_ix2 (x : SX.Idx → EReal) (W : SW.Idx → EReal) (b : Sb.Idx → EReal) (B : SB.Idx → EReal) (A : SA.Idx → EReal)
    (p : Fin 8192) (q : Fin 11008) : referenceForm x W b B A (ix2 p q) = referenceAt x W b B A p q := rfl

/-- With finite entries the two groupings of the low-rank term are one number. -/
theorem lowDownUp_eq_lowFull (x : SX.Idx → EReal) (B : SB.Idx → EReal) (A : SA.Idx → EReal)
    (hx : ∀ i, ∃ r : ℝ, x i = (r : EReal)) (hB : ∀ i, ∃ r : ℝ, B i = (r : EReal)) (hA : ∀ i, ∃ r : ℝ, A i = (r : EReal))
    (p : Fin 8192) (q : Fin 11008) : lowDownUp x B A p q = lowFull x B A p q := by
  choose xr hxr using hx
  choose Br hBr using hB
  choose Ar hAr using hA
  unfold lowDownUp lowFull down
  simp only [hxr, hBr, hAr]
  exact regroup (fun k : Fin 4096 => xr (ix2 p k)) (fun (r : Fin 16) (k : Fin 4096) => Ar (ix2 r k)) (fun r : Fin 16 => Br (ix2 q r))

/-- So, with finite x, B and A, the two forms of the layer are one function. -/
theorem forms_eq (x : SX.Idx → EReal) (W : SW.Idx → EReal) (b : Sb.Idx → EReal) (B : SB.Idx → EReal) (A : SA.Idx → EReal)
    (hx : ∀ i, ∃ r : ℝ, x i = (r : EReal)) (hB : ∀ i, ∃ r : ℝ, B i = (r : EReal)) (hA : ∀ i, ∃ r : ℝ, A i = (r : EReal)) :
    kernelForm x W b B A = referenceForm x W b B A := by
  funext i
  unfold kernelForm referenceForm kernelAt referenceAt
  rw [lowDownUp_eq_lowFull x B A hx hB hA]

end Cert.LowRank

end
-- ==== Proof.RefSide.lean ====
/-
  THE REFERENCE, READ AT AN INDEX, IS THE SPECIFICATION'S FULL-RANK FORM.

  The reference program computes (x·Wᵀ + bias) + (x·(B·A)ᵀ)·2 in twelve array operations.  Read at the entry (p, q) of the
  result, each operation is a function of its operands at one index (a transpose swaps the two coordinates, a broadcast
  forgets or repeats one, a contraction is a finite sum over its one contracted axis), so the entry is

      (∑ₖ x[p,k]·W[q,k] + bias[q]) + (∑ₖ x[p,k]·(∑ᵣ B[q,r]·A[r,k]))·2,

  which is `referenceAt`.  Each of the four summands' ingredients is read separately below, then put together.
-/
import proofs.«144183_j44006234915015_1_alg».proof.Proof.Gen.ReferenceIdeal.Read
import proofs.«144183_j44006234915015_1_alg».proof.Proof.Spec

noncomputable section

open scoped BigOperators

namespace Cert.LowRank.Ref

open Idealize.ShloMosaic Idealize.ShloMosaic.ValueIdx Cert.ReferenceIdeal.Read Cert.LowRank

/-- Entry (p, q) of x·Wᵀ: the contraction pairs x[p,k] with the transposed weight at (k, q), which is W[q,k]. -/
theorem dense_read (x0 : SX.Idx → EReal) (x1 : SW.Idx → EReal) (p : Fin 8192) (q : Fin 11008) :
    val_main_v2 (F := Ideal) x0 x1 (ix2 p q) = dense x0 x1 p q := by
  rw [val_main_v2_apply]
  unfold dense
  refine Finset.sum_congr rfl fun k _ => ?_
  rw [val_main_v1_apply]
  have el : lidx_main_v2 (ix2 p q) k = ix2 p k :=
    funext fun a => Fin.ext (by match a with | ⟨0, _⟩ => rfl | ⟨1, _⟩ => rfl)
  have er : idx_main_v1 (ridx_main_v2 (ix2 p q) k) = ix2 q k :=
    funext fun a => Fin.ext (by match a with | ⟨0, _⟩ => rfl | ⟨1, _⟩ => rfl)
  rw [el, er]

/-- Entry (p, q) of the bias broadcast along the rows: bias[q]. -/
theorem bias_read (x2 : Sb.Idx → EReal) (p : Fin 8192) (q : Fin 11008) :
    val_main_v4 (F := Ideal) x2 (ix2 p q) = x2 (ix1 q) := by
  rw [val_main_v4_apply, val_main_v3_apply]
  have e : idx_main_v3 (idx_main_v4 (ix2 p q)) = ix1 q :=
    funext fun a => Fin.ext (by match a with | ⟨0, _⟩ => rfl)
  rw [e]

/-- Entry (q, k) of the full-rank product B·A: the sum over the rank of B[q,r]·A[r,k]. -/
theorem full_read (x3 : SB.Idx → EReal) (x4 : SA.Idx → EReal) (q : Fin 11008) (k : Fin 4096) :
    val_main_v0 (F := Ideal) x3 x4 (ix2 q k) = ∑ r : Fin 16, x3 (ix2 q r) * x4 (ix2 r k) := by
  rw [val_main_v0_apply]
  refine Finset.sum_congr rfl fun r _ => ?_
  have el : lidx_main_v0 (ix2 q k) r = ix2 q r :=
    funext fun a => Fin.ext (by match a with | ⟨0, _⟩ => rfl | ⟨1, _⟩ => rfl)
  have er : ridx_main_v0 (ix2 q k) r = ix2 r k :=
    funext fun a => Fin.ext (by match a with | ⟨0, _⟩ => rfl | ⟨1, _⟩ => rfl)
  rw [el, er]

/-- Entry (p, q) of x·(B·A)ᵀ: the contraction pairs x[p,k] with the transposed product at (k, q), which is (B·A)[q,k]. -/
theorem low_read (x0 : SX.Idx → EReal) (x3 : SB.Idx → EReal) (x4 : SA.Idx → EReal) (p : Fin 8192) (q : Fin 11008) :
    val_main_v7 (F := Ideal) x0 x3 x4 (ix2 p q) = lowFull x0 x3 x4 p q := by
  rw [val_main_v7_apply]
  unfold lowFull
  refine Finset.sum_congr rfl fun k _ => ?_
  rw [val_main_v6_apply]
  have el : lidx_main_v7 (ix2 p q) k = ix2 p k :=
    funext fun a => Fin.ext (by match a with | ⟨0, _⟩ => rfl | ⟨1, _⟩ => rfl)
  have er : idx_main_v6 (ridx_main_v7 (ix2 p q) k) = ix2 q k :=
    funext fun a => Fin.ext (by match a with | ⟨0, _⟩ => rfl | ⟨1, _⟩ => rfl)
  rw [el, er, full_read]

/-- Every entry of the broadcast scalar is the factor 2, kept as its word. -/
theorem two_read (p : Fin 8192) (q : Fin 11008) :
    val_main_v8 (F := Ideal) (ix2 p q) = two := by
  rw [val_main_v8_apply, val_main_cst_apply]
  rfl

/-- The reference program's result is the specification's full-rank form. -/
theorem reference_is_spec (x0 : Cert.LowRank.SX.Idx → EReal) (x1 : Cert.LowRank.SW.Idx → EReal) (x2 : Cert.LowRank.Sb.Idx → EReal) (x3 : Cert.LowRank.SB.Idx → EReal) (x4 : Cert.LowRank.SA.Idx → EReal) :
    Cert.ReferenceIdeal.Read.val_main_v10 (F := Ideal) x0 x1 x2 x3 x4 = Cert.LowRank.referenceForm x0 x1 x2 x3 x4 := by
  funext i
  obtain ⟨p, q, rfl⟩ : ∃ (p : Fin 8192) (q : Fin 11008), i = ix2 p q := ⟨i 0, i 1, eq_ix2 i⟩
  rw [referenceForm_ix2, val_main_v10_apply, val_main_v5_apply, val_main_v9_apply,
    dense_read, bias_read, low_read, two_read, Ideal.addf_def, Ideal.addf_def, Ideal.mulf_def]
  rfl

end Cert.LowRank.Ref

end
-- ==== Proof.Finite.lean ====
/-
  FROM THE PRECONDITION TO "EVERY ENTRY IS A REAL NUMBER".

  The precondition is one truth value: the conjunction, over the five arguments, of "every entry v of
  this argument has |v| < +inf". Here the conjunction is taken apart, each "for every entry" is read
  back at a single entry, and the entry fact is turned into what the algebra uses: an extended real
  whose absolute value lies below +inf is neither +inf nor -inf, so it is (the image of) a real number.
  Only the input x, the up projection B and the down projection A are needed.
-/
import proofs.«144183_j44006234915015_1_alg».proof.Proof.Gen.Pre_finite_inputs
import Idealize.ShloMosaic.Lib.ReduceAll
import Idealize.ShloMosaic.Lib.ValueIdx
import Idealize.ShloMosaic.PureOps.Ideal

namespace Cert.LowRank.Fin

open Idealize.ShloMosaic

/-- The shape with no axes has exactly one index. -/
instance : Subsingleton Cert.Pre_finite_inputs.S_.Idx := ⟨fun a b => funext fun d => d.elim0⟩

/-- The f32 word with all exponent bits set and no fraction bit denotes +inf. -/
theorem inf_word : Ideal.ofBits .f32 0x7F800000#32 = (⊤ : EReal) := by
  simp [Ideal.ofBits, Ideal.ieee]

/-- An extended real whose absolute value, max a (-a), is below +inf is a real number:
    at a = +inf the maximum is +inf itself, and at a = -inf it is -(-inf) = +inf. -/
theorem real_of_abs_lt_top (a : EReal) (h : max a (-a) < (⊤ : EReal)) : ∃ r : ℝ, a = (r : EReal) := by
  induction a using EReal.rec with
  | bot => simp at h
  | coe r => exact ⟨r, rfl⟩
  | top => simp at h

/-- One entry: if the comparison "|v i| < +inf" (with +inf a scalar word spread over the whole shape)
    answers 1, the entry v i is a real number. -/
theorem real_of_bit {s : Shape} (hb : Cert.Pre_finite_inputs.S_.BroadcastsInDim s (![] : Fin 0 → Fin s.rank))
    (v : FVec Ideal s .f32) (i : s.Idx)
    (h : cmpf .olt (Host.absf v)
          (broadcastInDim s ![] hb (constant (F := Ideal) Cert.Pre_finite_inputs.S_ .f32 0x7F800000#32)) i = 1#1) :
    ∃ r : ℝ, v i = (r : EReal) := by
  have h' : BitVec.ofBool (decide (max (v i) (-(v i)) < Ideal.ofBits .f32 0x7F800000#32)) = 1#1 := h
  rw [inf_word] at h'
  refine real_of_abs_lt_top (v i) ?_
  by_contra hn
  rw [decide_eq_false hn] at h'
  exact absurd h' (by decide)

/-- The precondition holds only where x, B and A consist of real numbers. -/
theorem finite_of_pre (x : FVec Ideal Cert.Pre_finite_inputs.S8192x4096 .f32) (W : FVec Ideal Cert.Pre_finite_inputs.S11008x4096 .f32)
    (b : FVec Ideal Cert.Pre_finite_inputs.S11008 .f32) (B : FVec Ideal Cert.Pre_finite_inputs.S11008x16 .f32)
    (A : FVec Ideal Cert.Pre_finite_inputs.S16x4096 .f32)
    (h : Cert.Pre_finite_inputs.fn (F := Ideal) x W b B A = fun _ => 1#1) :
    (∀ i, ∃ r : ℝ, x i = (r : EReal)) ∧ (∀ i, ∃ r : ℝ, B i = (r : EReal)) ∧ (∀ i, ∃ r : ℝ, A i = (r : EReal)) := by
  have h0 := congrFun h ValueIdx.ix0
  dsimp only [Cert.Pre_finite_inputs.fn, Cert.Pre_finite_inputs.fn_part1] at h0
  -- the five-fold conjunction, from the outside in: ((((x ∧ W) ∧ bias) ∧ B) ∧ A)
  obtain ⟨h4, hA⟩ := IntOp.andi_eq_one.1 h0
  obtain ⟨h3, hB⟩ := IntOp.andi_eq_one.1 h4
  obtain ⟨h2, _⟩ := IntOp.andi_eq_one.1 h3
  obtain ⟨hx, _⟩ := IntOp.andi_eq_one.1 h2
  refine ⟨fun i => ?_, fun i => ?_, fun i => ?_⟩
  · exact real_of_bit _ x i (Host.reduce_andi_all _ _ _ _ _ hx i)
  · exact real_of_bit _ B i (Host.reduce_andi_all _ _ _ _ _ hB i)
  · exact real_of_bit _ A i (Host.reduce_andi_all _ _ _ _ _ hA i)

end Cert.LowRank.Fin
-- ==== Proof.Pieces.lean ====
/-
  WHAT EACH CONTROL CASE OF THE KERNEL BODY LEAVES BEHIND, as the body's own arithmetic.

  The body runs in one of three cases, chosen by the position k of the grid point along the
  reduction axis: the first step (k = 0) stores zero blocks into the two accumulators and then adds
  this step's products; a middle step (0 < k < 7) adds this step's products to what the step before
  left; the last step (k = 7) does the same and then writes the output block from the two finished
  accumulators.  Each lemma says that what a case leaves in an accumulator (or in the output block)
  is the corresponding arithmetic term of the blocks it loaded:

    * the dense accumulator:    (what it held) + x_blk · w_blkᵀ      (held: the zero block at k = 0);
    * the low-rank accumulator: (what it held) + x_blk · a_blkᵀ      (held: the zero block at k = 0);
    * the output block, at k = 7: (dense accumulator + bias row) + (low-rank accumulator · b_blkᵀ) · 2,
      over the two accumulators AS THIS STEP LEAVES THEM.

  Every store of the body writes a whole buffer, so a buffer's final contents are its last store's
  value, and a load that follows a store reads that store's value.  The statements hold for any
  reading of the floats.
-/
import proofs.«144183_j44006234915015_1_alg».proof.Proof.Gen.KernelIdeal.Frame
import Idealize.ShloMosaic.Lib.Pipeline.Value
import Idealize.ShloMosaic.Lib.Tactic

set_option maxRecDepth 16384

noncomputable section

namespace Cert.LowRank.Pieces

open Cert.KernelIdeal Cert.KernelIdeal.Gen Idealize.ShloMosaic Idealize.ShloMosaic.TcCoe Idealize.SL.Sem

variable {F : FTy → Type} [FloatOps F]

/-- Every store and load of the body starts at the origin of its buffer. -/
theorem hz : (![0, 0] : Fin 2 → Nat) = fun _ => 0 := funext fun a => by fin_cases a <;> rfl

/-- A middle step leaves in the dense accumulator what it held plus this step's x·Wᵀ. -/
theorem acc_B (c : Dev nD) (i : grid0.Coords) (arg3 : Memref sig .tc .vmem S4096x512 .f32) (harg3 : arg3.IsWhole) (arg4 : Memref sig .tc .vmem S256x512 .f32) (harg4 : arg4.IsWhole) (arg5 : Memref sig .tc .vmem S1x256 .f32) (harg5 : arg5.IsWhole) (arg6 : Memref sig .tc .vmem S256x16 .f32) (harg6 : arg6.IsWhole) (arg7 : Memref sig .tc .vmem S16x512 .f32) (harg7 : arg7.IsWhole) (arg8 : Memref sig .tc .vmem S4096x256 .f32) (harg8 : arg8.IsWhole) (arg9 : Memref sig .tc .vmem S4096x256 .f32) (harg9 : arg9.IsWhole) (arg10 : Memref sig .tc .vmem S4096x16 .f32) (harg10 : arg10.IsWhole) (hc0 : ¬cond0_0 i) (hc1 : ¬cond0_1 i) (x0 : Vec F S4096x512 .f32) (x1 : Vec F S256x512 .f32) (x2 : Vec F S1x256 .f32) (x3 : Vec F S256x16 .f32) (x4 : Vec F S16x512 .f32) (xs0 : Vec F S4096x256 .f32) (xs1 : Vec F S4096x16 .f32) :
    sout0_B_0 c i arg3 harg3 arg4 harg4 arg5 harg5 arg6 harg6 arg7 harg7 arg8 harg8 arg9 harg9 arg10 harg10 hc0 hc1 x0 x1 x2 x3 x4 xs0 xs1 = k0_pay4 x0 x1 xs0 := by
  unfold sout0_B_0
  rw [View.read_writes_eq_canon _ _ _ (scover0_B_0 c i arg3 harg3 arg4 harg4 arg5 harg5 arg6 harg6 arg7 harg7 arg8 harg8 arg9 harg9 arg10 harg10 hc0 hc1 x0 x1 x2 x3 x4 xs0 xs1)]
  unfold kernelRun0_B
  dsimp only
  sl_unfold_words
  rw [View.canon_unit_zero hz]
  simp only [View.readAt_eq_ld, harg3.read_unread, harg4.read_unread, harg5.read_unread, harg6.read_unread, harg7.read_unread, harg8.read_unread, harg9.read_unread, harg10.read_unread, View.ld_unit_zero (S := S4096x512) hz, View.ld_unit_zero (S := S256x512) hz, View.ld_unit_zero (S := S16x512) hz, View.ld_unit_zero (S := S4096x256) hz, View.ld_unit_zero (S := S4096x16) hz, View.ld_unit_zero (S := S256x16) hz, View.ld_unit_zero (S := S1x256) hz, View.readCov_unit_zero (S := S4096x256) _ hz, View.readCov_unit_zero (S := S4096x16) _ hz]

/-- A middle step leaves in the low-rank accumulator what it held plus this step's x·Aᵀ. -/
theorem xa_B (c : Dev nD) (i : grid0.Coords) (arg3 : Memref sig .tc .vmem S4096x512 .f32) (harg3 : arg3.IsWhole) (arg4 : Memref sig .tc .vmem S256x512 .f32) (harg4 : arg4.IsWhole) (arg5 : Memref sig .tc .vmem S1x256 .f32) (harg5 : arg5.IsWhole) (arg6 : Memref sig .tc .vmem S256x16 .f32) (harg6 : arg6.IsWhole) (arg7 : Memref sig .tc .vmem S16x512 .f32) (harg7 : arg7.IsWhole) (arg8 : Memref sig .tc .vmem S4096x256 .f32) (harg8 : arg8.IsWhole) (arg9 : Memref sig .tc .vmem S4096x256 .f32) (harg9 : arg9.IsWhole) (arg10 : Memref sig .tc .vmem S4096x16 .f32) (harg10 : arg10.IsWhole) (hc0 : ¬cond0_0 i) (hc1 : ¬cond0_1 i) (x0 : Vec F S4096x512 .f32) (x1 : Vec F S256x512 .f32) (x2 : Vec F S1x256 .f32) (x3 : Vec F S256x16 .f32) (x4 : Vec F S16x512 .f32) (xs0 : Vec F S4096x256 .f32) (xs1 : Vec F S4096x16 .f32) :
    sout0_B_1 c i arg3 harg3 arg4 harg4 arg5 harg5 arg6 harg6 arg7 harg7 arg8 harg8 arg9 harg9 arg10 harg10 hc0 hc1 x0 x1 x2 x3 x4 xs0 xs1 = k0_pay5 x0 x4 xs1 := by
  unfold sout0_B_1
  rw [View.read_writes_eq_canon _ _ _ (scover0_B_1 c i arg3 harg3 arg4 harg4 arg5 harg5 arg6 harg6 arg7 harg7 arg8 harg8 arg9 harg9 arg10 harg10 hc0 hc1 x0 x1 x2 x3 x4 xs0 xs1)]
  unfold kernelRun0_B
  dsimp only
  sl_unfold_words
  rw [View.canon_unit_zero hz]
  simp only [View.readAt_eq_ld, harg3.read_unread, harg4.read_unread, harg5.read_unread, harg6.read_unread, harg7.read_unread, harg8.read_unread, harg9.read_unread, harg10.read_unread, View.ld_unit_zero (S := S4096x512) hz, View.ld_unit_zero (S := S256x512) hz, View.ld_unit_zero (S := S16x512) hz, View.ld_unit_zero (S := S4096x256) hz, View.ld_unit_zero (S := S4096x16) hz, View.ld_unit_zero (S := S256x16) hz, View.ld_unit_zero (S := S1x256) hz, View.readCov_unit_zero (S := S4096x256) _ hz, View.readCov_unit_zero (S := S4096x16) _ hz]

/-- The last step leaves in the dense accumulator what it held plus this step's x·Wᵀ. -/
theorem acc_C (c : Dev nD) (i : grid0.Coords) (arg3 : Memref sig .tc .vmem S4096x512 .f32) (harg3 : arg3.IsWhole) (arg4 : Memref sig .tc .vmem S256x512 .f32) (harg4 : arg4.IsWhole) (arg5 : Memref sig .tc .vmem S1x256 .f32) (harg5 : arg5.IsWhole) (arg6 : Memref sig .tc .vmem S256x16 .f32) (harg6 : arg6.IsWhole) (arg7 : Memref sig .tc .vmem S16x512 .f32) (harg7 : arg7.IsWhole) (arg8 : Memref sig .tc .vmem S4096x256 .f32) (harg8 : arg8.IsWhole) (arg9 : Memref sig .tc .vmem S4096x256 .f32) (harg9 : arg9.IsWhole) (arg10 : Memref sig .tc .vmem S4096x16 .f32) (harg10 : arg10.IsWhole) (hc0 : ¬cond0_0 i) (hc1 : cond0_1 i) (x0 : Vec F S4096x512 .f32) (x1 : Vec F S256x512 .f32) (x2 : Vec F S1x256 .f32) (x3 : Vec F S256x16 .f32) (x4 : Vec F S16x512 .f32) (xs0 : Vec F S4096x256 .f32) (xs1 : Vec F S4096x16 .f32) :
    sout0_C_0 c i arg3 harg3 arg4 harg4 arg5 harg5 arg6 harg6 arg7 harg7 arg8 harg8 arg9 harg9 arg10 harg10 hc0 hc1 x0 x1 x2 x3 x4 xs0 xs1 = k0_pay4 x0 x1 xs0 := by
  unfold sout0_C_0
  rw [View.read_writes_eq_canon _ _ _ (scover0_C_0 c i arg3 harg3 arg4 harg4 arg5 harg5 arg6 harg6 arg7 harg7 arg8 harg8 arg9 harg9 arg10 harg10 hc0 hc1 x0 x1 x2 x3 x4 xs0 xs1)]
  unfold kernelRun0_C
  dsimp only
  sl_unfold_words
  rw [View.canon_unit_zero hz]
  simp only [View.readAt_eq_ld, harg3.read_unread, harg4.read_unread, harg5.read_unread, harg6.read_unread, harg7.read_unread, harg8.read_unread, harg9.read_unread, harg10.read_unread, View.ld_unit_zero (S := S4096x512) hz, View.ld_unit_zero (S := S256x512) hz, View.ld_unit_zero (S := S16x512) hz, View.ld_unit_zero (S := S4096x256) hz, View.ld_unit_zero (S := S4096x16) hz, View.ld_unit_zero (S := S256x16) hz, View.ld_unit_zero (S := S1x256) hz, View.readCov_unit_zero (S := S4096x256) _ hz, View.readCov_unit_zero (S := S4096x16) _ hz]

/-- The last step leaves in the low-rank accumulator what it held plus this step's x·Aᵀ. -/
theorem xa_C (c : Dev nD) (i : grid0.Coords) (arg3 : Memref sig .tc .vmem S4096x512 .f32) (harg3 : arg3.IsWhole) (arg4 : Memref sig .tc .vmem S256x512 .f32) (harg4 : arg4.IsWhole) (arg5 : Memref sig .tc .vmem S1x256 .f32) (harg5 : arg5.IsWhole) (arg6 : Memref sig .tc .vmem S256x16 .f32) (harg6 : arg6.IsWhole) (arg7 : Memref sig .tc .vmem S16x512 .f32) (harg7 : arg7.IsWhole) (arg8 : Memref sig .tc .vmem S4096x256 .f32) (harg8 : arg8.IsWhole) (arg9 : Memref sig .tc .vmem S4096x256 .f32) (harg9 : arg9.IsWhole) (arg10 : Memref sig .tc .vmem S4096x16 .f32) (harg10 : arg10.IsWhole) (hc0 : ¬cond0_0 i) (hc1 : cond0_1 i) (x0 : Vec F S4096x512 .f32) (x1 : Vec F S256x512 .f32) (x2 : Vec F S1x256 .f32) (x3 : Vec F S256x16 .f32) (x4 : Vec F S16x512 .f32) (xs0 : Vec F S4096x256 .f32) (xs1 : Vec F S4096x16 .f32) :
    sout0_C_1 c i arg3 harg3 arg4 harg4 arg5 harg5 arg6 harg6 arg7 harg7 arg8 harg8 arg9 harg9 arg10 harg10 hc0 hc1 x0 x1 x2 x3 x4 xs0 xs1 = k0_pay5 x0 x4 xs1 := by
  unfold sout0_C_1
  rw [View.read_writes_eq_canon _ _ _ (scover0_C_1 c i arg3 harg3 arg4 harg4 arg5 harg5 arg6 harg6 arg7 harg7 arg8 harg8 arg9 harg9 arg10 harg10 hc0 hc1 x0 x1 x2 x3 x4 xs0 xs1)]
  unfold kernelRun0_C
  dsimp only
  sl_unfold_words
  rw [View.canon_unit_zero hz]
  simp only [View.readAt_eq_ld, harg3.read_unread, harg4.read_unread, harg5.read_unread, harg6.read_unread, harg7.read_unread, harg8.read_unread, harg9.read_unread, harg10.read_unread, View.ld_unit_zero (S := S4096x512) hz, View.ld_unit_zero (S := S256x512) hz, View.ld_unit_zero (S := S16x512) hz, View.ld_unit_zero (S := S4096x256) hz, View.ld_unit_zero (S := S4096x16) hz, View.ld_unit_zero (S := S256x16) hz, View.ld_unit_zero (S := S1x256) hz, View.readCov_unit_zero (S := S4096x256) _ hz, View.readCov_unit_zero (S := S4096x16) _ hz]

/-- The last step writes the output block from the two accumulators as it has just left them. -/
theorem out_C (c : Dev nD) (i : grid0.Coords) (arg3 : Memref sig .tc .vmem S4096x512 .f32) (harg3 : arg3.IsWhole) (arg4 : Memref sig .tc .vmem S256x512 .f32) (harg4 : arg4.IsWhole) (arg5 : Memref sig .tc .vmem S1x256 .f32) (harg5 : arg5.IsWhole) (arg6 : Memref sig .tc .vmem S256x16 .f32) (harg6 : arg6.IsWhole) (arg7 : Memref sig .tc .vmem S16x512 .f32) (harg7 : arg7.IsWhole) (arg8 : Memref sig .tc .vmem S4096x256 .f32) (harg8 : arg8.IsWhole) (arg9 : Memref sig .tc .vmem S4096x256 .f32) (harg9 : arg9.IsWhole) (arg10 : Memref sig .tc .vmem S4096x16 .f32) (harg10 : arg10.IsWhole) (hc0 : ¬cond0_0 i) (hc1 : cond0_1 i) (x0 : Vec F S4096x512 .f32) (x1 : Vec F S256x512 .f32) (x2 : Vec F S1x256 .f32) (x3 : Vec F S256x16 .f32) (x4 : Vec F S16x512 .f32) (xs0 : Vec F S4096x256 .f32) (xs1 : Vec F S4096x16 .f32) :
    out0_C_5 c i arg3 harg3 arg4 harg4 arg5 harg5 arg6 harg6 arg7 harg7 arg8 harg8 arg9 harg9 arg10 harg10 hc0 hc1 x0 x1 x2 x3 x4 xs0 xs1 = k0_pay6 x3 (k0_pay5 x0 x4 xs1) (k0_pay4 x0 x1 xs0) x2 := by
  unfold out0_C_5
  rw [View.read_writes_eq_canon _ _ _ (cover0_C_5 c i arg3 harg3 arg4 harg4 arg5 harg5 arg6 harg6 arg7 harg7 arg8 harg8 arg9 harg9 arg10 harg10 hc0 hc1 x0 x1 x2 x3 x4 xs0 xs1)]
  unfold kernelRun0_C
  dsimp only
  sl_unfold_words
  rw [View.canon_unit_zero hz]
  simp only [View.readAt_eq_ld, harg3.read_unread, harg4.read_unread, harg5.read_unread, harg6.read_unread, harg7.read_unread, harg8.read_unread, harg9.read_unread, harg10.read_unread, View.ld_unit_zero (S := S4096x512) hz, View.ld_unit_zero (S := S256x512) hz, View.ld_unit_zero (S := S16x512) hz, View.ld_unit_zero (S := S4096x256) hz, View.ld_unit_zero (S := S4096x16) hz, View.ld_unit_zero (S := S256x16) hz, View.ld_unit_zero (S := S1x256) hz, View.readCov_unit_zero (S := S4096x256) _ hz, View.readCov_unit_zero (S := S4096x16) _ hz]

/-- The first step leaves in the dense accumulator the zero block plus this step's x·Wᵀ. -/
theorem acc_A (c : Dev nD) (i : grid0.Coords) (arg3 : Memref sig .tc .vmem S4096x512 .f32) (harg3 : arg3.IsWhole) (arg4 : Memref sig .tc .vmem S256x512 .f32) (harg4 : arg4.IsWhole) (arg5 : Memref sig .tc .vmem S1x256 .f32) (harg5 : arg5.IsWhole) (arg6 : Memref sig .tc .vmem S256x16 .f32) (harg6 : arg6.IsWhole) (arg7 : Memref sig .tc .vmem S16x512 .f32) (harg7 : arg7.IsWhole) (arg8 : Memref sig .tc .vmem S4096x256 .f32) (harg8 : arg8.IsWhole) (arg9 : Memref sig .tc .vmem S4096x256 .f32) (harg9 : arg9.IsWhole) (arg10 : Memref sig .tc .vmem S4096x16 .f32) (harg10 : arg10.IsWhole) (hc0 : cond0_0 i) (hc1 : ¬cond0_1 i) (x0 : Vec F S4096x512 .f32) (x1 : Vec F S256x512 .f32) (x2 : Vec F S1x256 .f32) (x3 : Vec F S256x16 .f32) (x4 : Vec F S16x512 .f32) :
    sout0_A_0 c i arg3 harg3 arg4 harg4 arg5 harg5 arg6 harg6 arg7 harg7 arg8 harg8 arg9 harg9 arg10 harg10 hc0 hc1 x0 x1 x2 x3 x4 = k0_pay4 x0 x1 (k0_pay1 (F := F)) := by
  unfold sout0_A_0
  rw [View.read_writes_eq_canon _ _ _ (scover0_A_0 c i arg3 harg3 arg4 harg4 arg5 harg5 arg6 harg6 arg7 harg7 arg8 harg8 arg9 harg9 arg10 harg10 hc0 hc1 x0 x1 x2 x3 x4)]
  unfold kernelRun0_A
  dsimp only
  sl_unfold_words
  rw [View.canon_cons_unit_zero (S := S4096x256) hz]
  simp only [View.readAt_eq_ld, harg3.read_unread, harg4.read_unread, harg5.read_unread, harg6.read_unread, harg7.read_unread, harg8.read_unread, harg9.read_unread, harg10.read_unread, View.ld_unit_zero (S := S4096x512) hz, View.ld_unit_zero (S := S256x512) hz, View.ld_unit_zero (S := S16x512) hz, View.ld_unit_zero (S := S4096x256) hz, View.ld_unit_zero (S := S4096x16) hz, View.ld_unit_zero (S := S256x16) hz, View.ld_unit_zero (S := S1x256) hz, View.readCov_unit_zero (S := S4096x256) _ hz, View.readCov_unit_zero (S := S4096x16) _ hz]

/-- The first step leaves in the low-rank accumulator the zero block plus this step's x·Aᵀ. -/
theorem xa_A (c : Dev nD) (i : grid0.Coords) (arg3 : Memref sig .tc .vmem S4096x512 .f32) (harg3 : arg3.IsWhole) (arg4 : Memref sig .tc .vmem S256x512 .f32) (harg4 : arg4.IsWhole) (arg5 : Memref sig .tc .vmem S1x256 .f32) (harg5 : arg5.IsWhole) (arg6 : Memref sig .tc .vmem S256x16 .f32) (harg6 : arg6.IsWhole) (arg7 : Memref sig .tc .vmem S16x512 .f32) (harg7 : arg7.IsWhole) (arg8 : Memref sig .tc .vmem S4096x256 .f32) (harg8 : arg8.IsWhole) (arg9 : Memref sig .tc .vmem S4096x256 .f32) (harg9 : arg9.IsWhole) (arg10 : Memref sig .tc .vmem S4096x16 .f32) (harg10 : arg10.IsWhole) (hc0 : cond0_0 i) (hc1 : ¬cond0_1 i) (x0 : Vec F S4096x512 .f32) (x1 : Vec F S256x512 .f32) (x2 : Vec F S1x256 .f32) (x3 : Vec F S256x16 .f32) (x4 : Vec F S16x512 .f32) :
    sout0_A_1 c i arg3 harg3 arg4 harg4 arg5 harg5 arg6 harg6 arg7 harg7 arg8 harg8 arg9 harg9 arg10 harg10 hc0 hc1 x0 x1 x2 x3 x4 = k0_pay5 x0 x4 (k0_pay2 (F := F)) := by
  unfold sout0_A_1
  rw [View.read_writes_eq_canon _ _ _ (scover0_A_1 c i arg3 harg3 arg4 harg4 arg5 harg5 arg6 harg6 arg7 harg7 arg8 harg8 arg9 harg9 arg10 harg10 hc0 hc1 x0 x1 x2 x3 x4)]
  unfold kernelRun0_A
  dsimp only
  sl_unfold_words
  rw [View.canon_cons_unit_zero (S := S4096x16) hz]
  simp only [View.readAt_eq_ld, harg3.read_unread, harg4.read_unread, harg5.read_unread, harg6.read_unread, harg7.read_unread, harg8.read_unread, harg9.read_unread, harg10.read_unread, View.ld_unit_zero (S := S4096x512) hz, View.ld_unit_zero (S := S256x512) hz, View.ld_unit_zero (S := S16x512) hz, View.ld_unit_zero (S := S4096x256) hz, View.ld_unit_zero (S := S4096x16) hz, View.ld_unit_zero (S := S256x16) hz, View.ld_unit_zero (S := S1x256) hz, View.readCov_unit_zero (S := S4096x256) _ hz, View.readCov_unit_zero (S := S4096x16) _ hz]

end Cert.LowRank.Pieces

end
-- ==== Proof.PayloadAt.lean ====
/-
  THE KERNEL BODY'S ARITHMETIC, READ AT AN INDEX, over the extended reals.

  Each value the body stores is read here at the entry (p, q) of its block:

  * the first reduction step stores the zero block, twice (the dense accumulator and the low-rank one);
  * every reduction step adds to the running dense block the product of the x block with the TRANSPOSED
    W block: entry (p, q) of x_blk·w_blkᵀ is the sum over k of x_blk[p,k] * w_blk[q,k];
  * and to the running low-rank block the product of the x block with the transposed A block, likewise;
  * the last step stores (acc + the bias row, repeated down the rows) + (xa·b_blkᵀ) * 2.

  Over the extended reals the narrowing to the 16-bit format is the identity, a product accumulated into the
  zero block is the plain sum over the contraction coordinate, and a cast to the same shape is the identity.
-/
import proofs.«144183_j44006234915015_1_alg».proof.Proof.Gen.KernelIdeal.Skeleton
import proofs.«144183_j44006234915015_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.LowRank.Pay

open Cert.KernelIdeal Cert.KernelIdeal.Gen Idealize.ShloMosaic Idealize.ShloMosaic.ValueIdx

/-! ## The three products, each read at an index

For a product of a [m, k] block with a [k, n] block the operand indices at the result's (p, q) and the
contraction coordinate kk are (p, kk) and (kk, q). -/

/-- On the left operand's row axis the operand index carries the result's row. -/
theorem lhs_xw_0 (i : S4096x256.Idx) (q : dot_S4096x512_S512x256_S4096x256_1_0_0_1_n_n.contr.Idx) :
    (dot_S4096x512_S512x256_S4096x256_1_0_0_1_n_n.lhsIdx i q 0).val = (i 0).val := by
  unfold DotDims.lhsIdx
  rw [dif_neg (show ¬(0 : Fin S4096x512.rank) ∈ dot_S4096x512_S512x256_S4096x256_1_0_0_1_n_n.lhsBatch by decide), dif_pos (show (0 : Fin S4096x512.rank) ∈ dot_S4096x512_S512x256_S4096x256_1_0_0_1_n_n.lhsNonContracting by decide)]
  rfl
/-- On the left operand's column axis it carries the contraction coordinate. -/
theorem lhs_xw_1 (i : S4096x256.Idx) (q : dot_S4096x512_S512x256_S4096x256_1_0_0_1_n_n.contr.Idx) :
    (dot_S4096x512_S512x256_S4096x256_1_0_0_1_n_n.lhsIdx i q 1).val = (q ⟨0, by decide⟩).val :=
  dot_S4096x512_S512x256_S4096x256_1_0_0_1_n_n.lhsIdx_val_of_single rfl i q
/-- On the right operand's row axis the operand index carries the contraction coordinate. -/
theorem rhs_xw_0 (i : S4096x256.Idx) (q : dot_S4096x512_S512x256_S4096x256_1_0_0_1_n_n.contr.Idx) :
    (dot_S4096x512_S512x256_S4096x256_1_0_0_1_n_n.rhsIdx i q 0).val = (q ⟨0, by decide⟩).val :=
  dot_S4096x512_S512x256_S4096x256_1_0_0_1_n_n.rhsIdx_val_of_single rfl i q
/-- On the right operand's column axis it carries the result's column. -/
theorem rhs_xw_1 (i : S4096x256.Idx) (q : dot_S4096x512_S512x256_S4096x256_1_0_0_1_n_n.contr.Idx) :
    (dot_S4096x512_S512x256_S4096x256_1_0_0_1_n_n.rhsIdx i q 1).val = (i 1).val := by
  unfold DotDims.rhsIdx
  rw [dif_neg (show ¬(1 : Fin S512x256.rank) ∈ dot_S4096x512_S512x256_S4096x256_1_0_0_1_n_n.rhsBatch by decide), dif_pos (show (1 : Fin S512x256.rank) ∈ dot_S4096x512_S512x256_S4096x256_1_0_0_1_n_n.rhsNonContracting by decide)]
  rfl

/-- The product into the zero block, read at (p, q): the sum over the contraction coordinate of the left operand's
    row p against the right operand's column q. -/
theorem mm_xw_at (a : FVec Ideal S4096x512 .bf16) (b : FVec Ideal S512x256 .bf16) (p : Fin 4096) (q : Fin 256) :
    matmul dot_S4096x512_S512x256_S4096x256_1_0_0_1_n_n none a b (constant (F := Ideal) S4096x256 .f32 0x00000000#32) (ix2 p q)
      = ∑ kk : Fin 512, a (ix2 p kk) * b (ix2 kk q) := by
  simp only [matmul]
  rw [Ideal.matmul_constant_zero_apply, ← Equiv.sum_comp (contrEquiv1 dot_S4096x512_S512x256_S4096x256_1_0_0_1_n_n 512 rfl rfl).symm]
  refine Finset.sum_congr rfl fun k _ => ?_
  have hk := contrEquiv1_symm_val dot_S4096x512_S512x256_S4096x256_1_0_0_1_n_n 512 rfl rfl k
  have el : dot_S4096x512_S512x256_S4096x256_1_0_0_1_n_n.lhsIdx (ix2 p q) ((contrEquiv1 dot_S4096x512_S512x256_S4096x256_1_0_0_1_n_n 512 rfl rfl).symm k) = ix2 p k := funext fun c => Fin.ext (by
    match c with
    | ⟨0, _⟩ => exact lhs_xw_0 _ _
    | ⟨1, _⟩ => exact (lhs_xw_1 _ _).trans hk)
  have er : dot_S4096x512_S512x256_S4096x256_1_0_0_1_n_n.rhsIdx (ix2 p q) ((contrEquiv1 dot_S4096x512_S512x256_S4096x256_1_0_0_1_n_n 512 rfl rfl).symm k) = ix2 k q := funext fun c => Fin.ext (by
    match c with
    | ⟨0, _⟩ => exact (rhs_xw_0 _ _).trans hk
    | ⟨1, _⟩ => exact rhs_xw_1 _ _)
  rw [el, er]

/-- On the left operand's row axis the operand index carries the result's row. -/
theorem lhs_xa_0 (i : S4096x16.Idx) (q : dot_S4096x512_S512x16_S4096x16_1_0_0_1_n_n.contr.Idx) :
    (dot_S4096x512_S512x16_S4096x16_1_0_0_1_n_n.lhsIdx i q 0).val = (i 0).val := by
  unfold DotDims.lhsIdx
  rw [dif_neg (show ¬(0 : Fin S4096x512.rank) ∈ dot_S4096x512_S512x16_S4096x16_1_0_0_1_n_n.lhsBatch by decide), dif_pos (show (0 : Fin S4096x512.rank) ∈ dot_S4096x512_S512x16_S4096x16_1_0_0_1_n_n.lhsNonContracting by decide)]
  rfl
/-- On the left operand's column axis it carries the contraction coordinate. -/
theorem lhs_xa_1 (i : S4096x16.Idx) (q : dot_S4096x512_S512x16_S4096x16_1_0_0_1_n_n.contr.Idx) :
    (dot_S4096x512_S512x16_S4096x16_1_0_0_1_n_n.lhsIdx i q 1).val = (q ⟨0, by decide⟩).val :=
  dot_S4096x512_S512x16_S4096x16_1_0_0_1_n_n.lhsIdx_val_of_single rfl i q
/-- On the right operand's row axis the operand index carries the contraction coordinate. -/
theorem rhs_xa_0 (i : S4096x16.Idx) (q : dot_S4096x512_S512x16_S4096x16_1_0_0_1_n_n.contr.Idx) :
    (dot_S4096x512_S512x16_S4096x16_1_0_0_1_n_n.rhsIdx i q 0).val = (q ⟨0, by decide⟩).val :=
  dot_S4096x512_S512x16_S4096x16_1_0_0_1_n_n.rhsIdx_val_of_single rfl i q
/-- On the right operand's column axis it carries the result's column. -/
theorem rhs_xa_1 (i : S4096x16.Idx) (q : dot_S4096x512_S512x16_S4096x16_1_0_0_1_n_n.contr.Idx) :
    (dot_S4096x512_S512x16_S4096x16_1_0_0_1_n_n.rhsIdx i q 1).val = (i 1).val := by
  unfold DotDims.rhsIdx
  rw [dif_neg (show ¬(1 : Fin S512x16.rank) ∈ dot_S4096x512_S512x16_S4096x16_1_0_0_1_n_n.rhsBatch by decide), dif_pos (show (1 : Fin S512x16.rank) ∈ dot_S4096x512_S512x16_S4096x16_1_0_0_1_n_n.rhsNonContracting by decide)]
  rfl

/-- The product into the zero block, read at (p, q): the sum over the contraction coordinate of the left operand's
    row p against the right operand's column q. -/
theorem mm_xa_at (a : FVec Ideal S4096x512 .bf16) (b : FVec Ideal S512x16 .bf16) (p : Fin 4096) (q : Fin 16) :
    matmul dot_S4096x512_S512x16_S4096x16_1_0_0_1_n_n none a b (constant (F := Ideal) S4096x16 .f32 0x00000000#32) (ix2 p q)
      = ∑ kk : Fin 512, a (ix2 p kk) * b (ix2 kk q) := by
  simp only [matmul]
  rw [Ideal.matmul_constant_zero_apply, ← Equiv.sum_comp (contrEquiv1 dot_S4096x512_S512x16_S4096x16_1_0_0_1_n_n 512 rfl rfl).symm]
  refine Finset.sum_congr rfl fun k _ => ?_
  have hk := contrEquiv1_symm_val dot_S4096x512_S512x16_S4096x16_1_0_0_1_n_n 512 rfl rfl k
  have el : dot_S4096x512_S512x16_S4096x16_1_0_0_1_n_n.lhsIdx (ix2 p q) ((contrEquiv1 dot_S4096x512_S512x16_S4096x16_1_0_0_1_n_n 512 rfl rfl).symm k) = ix2 p k := funext fun c => Fin.ext (by
    match c with
    | ⟨0, _⟩ => exact lhs_xa_0 _ _
    | ⟨1, _⟩ => exact (lhs_xa_1 _ _).trans hk)
  have er : dot_S4096x512_S512x16_S4096x16_1_0_0_1_n_n.rhsIdx (ix2 p q) ((contrEquiv1 dot_S4096x512_S512x16_S4096x16_1_0_0_1_n_n 512 rfl rfl).symm k) = ix2 k q := funext fun c => Fin.ext (by
    match c with
    | ⟨0, _⟩ => exact (rhs_xa_0 _ _).trans hk
    | ⟨1, _⟩ => exact rhs_xa_1 _ _)
  rw [el, er]

/-- On the left operand's row axis the operand index carries the result's row. -/
theorem lhs_ub_0 (i : S4096x256.Idx) (q : dot_S4096x16_S16x256_S4096x256_1_0_0_1_n_n.contr.Idx) :
    (dot_S4096x16_S16x256_S4096x256_1_0_0_1_n_n.lhsIdx i q 0).val = (i 0).val := by
  unfold DotDims.lhsIdx
  rw [dif_neg (show ¬(0 : Fin S4096x16.rank) ∈ dot_S4096x16_S16x256_S4096x256_1_0_0_1_n_n.lhsBatch by decide), dif_pos (show (0 : Fin S4096x16.rank) ∈ dot_S4096x16_S16x256_S4096x256_1_0_0_1_n_n.lhsNonContracting by decide)]
  rfl
/-- On the left operand's column axis it carries the contraction coordinate. -/
theorem lhs_ub_1 (i : S4096x256.Idx) (q : dot_S4096x16_S16x256_S4096x256_1_0_0_1_n_n.contr.Idx) :
    (dot_S4096x16_S16x256_S4096x256_1_0_0_1_n_n.lhsIdx i q 1).val = (q ⟨0, by decide⟩).val :=
  dot_S4096x16_S16x256_S4096x256_1_0_0_1_n_n.lhsIdx_val_of_single rfl i q
/-- On the right operand's row axis the operand index carries the contraction coordinate. -/
theorem rhs_ub_0 (i : S4096x256.Idx) (q : dot_S4096x16_S16x256_S4096x256_1_0_0_1_n_n.contr.Idx) :
    (dot_S4096x16_S16x256_S4096x256_1_0_0_1_n_n.rhsIdx i q 0).val = (q ⟨0, by decide⟩).val :=
  dot_S4096x16_S16x256_S4096x256_1_0_0_1_n_n.rhsIdx_val_of_single rfl i q
/-- On the right operand's column axis it carries the result's column. -/
theorem rhs_ub_1 (i : S4096x256.Idx) (q : dot_S4096x16_S16x256_S4096x256_1_0_0_1_n_n.contr.Idx) :
    (dot_S4096x16_S16x256_S4096x256_1_0_0_1_n_n.rhsIdx i q 1).val = (i 1).val := by
  unfold DotDims.rhsIdx
  rw [dif_neg (show ¬(1 : Fin S16x256.rank) ∈ dot_S4096x16_S16x256_S4096x256_1_0_0_1_n_n.rhsBatch by decide), dif_pos (show (1 : Fin S16x256.rank) ∈ dot_S4096x16_S16x256_S4096x256_1_0_0_1_n_n.rhsNonContracting by decide)]
  rfl

/-- The product into the zero block, read at (p, q): the sum over the contraction coordinate of the left operand's
    row p against the right operand's column q. -/
theorem mm_ub_at (a : FVec Ideal S4096x16 .bf16) (b : FVec Ideal S16x256 .bf16) (p : Fin 4096) (q : Fin 256) :
    matmul dot_S4096x16_S16x256_S4096x256_1_0_0_1_n_n none a b (constant (F := Ideal) S4096x256 .f32 0x00000000#32) (ix2 p q)
      = ∑ kk : Fin 16, a (ix2 p kk) * b (ix2 kk q) := by
  simp only [matmul]
  rw [Ideal.matmul_constant_zero_apply, ← Equiv.sum_comp (contrEquiv1 dot_S4096x16_S16x256_S4096x256_1_0_0_1_n_n 16 rfl rfl).symm]
  refine Finset.sum_congr rfl fun k _ => ?_
  have hk := contrEquiv1_symm_val dot_S4096x16_S16x256_S4096x256_1_0_0_1_n_n 16 rfl rfl k
  have el : dot_S4096x16_S16x256_S4096x256_1_0_0_1_n_n.lhsIdx (ix2 p q) ((contrEquiv1 dot_S4096x16_S16x256_S4096x256_1_0_0_1_n_n 16 rfl rfl).symm k) = ix2 p k := funext fun c => Fin.ext (by
    match c with
    | ⟨0, _⟩ => exact lhs_ub_0 _ _
    | ⟨1, _⟩ => exact (lhs_ub_1 _ _).trans hk)
  have er : dot_S4096x16_S16x256_S4096x256_1_0_0_1_n_n.rhsIdx (ix2 p q) ((contrEquiv1 dot_S4096x16_S16x256_S4096x256_1_0_0_1_n_n 16 rfl rfl).symm k) = ix2 k q := funext fun c => Fin.ext (by
    match c with
    | ⟨0, _⟩ => exact (rhs_ub_0 _ _).trans hk
    | ⟨1, _⟩ => exact rhs_ub_1 _ _)
  rw [el, er]

/-! ## The zero blocks of the first reduction step -/

/-- The dense accumulator's first value is zero everywhere. -/
theorem pay1_at (p : Fin 4096) (q : Fin 256) : k0_pay1 (F := Ideal) (ix2 p q) = 0 := by
  unfold k0_pay1
  refine (congrFun (shapeCast_self _ _) _).trans ?_
  exact Ideal.ofBits_zero_f32

/-- The low-rank accumulator's first value is zero everywhere. -/
theorem pay2_at (p : Fin 4096) (r : Fin 16) : k0_pay2 (F := Ideal) (ix2 p r) = 0 := by
  unfold k0_pay2
  refine (congrFun (shapeCast_self _ _) _).trans ?_
  exact Ideal.ofBits_zero_f32

/-! ## A reduction step -/

/-- The dense accumulator gains entry (p, q) of x_blk·w_blkᵀ. -/
theorem pay4_at (xb : Vec Ideal S4096x512 .f32) (wb : Vec Ideal S256x512 .f32) (acc : Vec Ideal S4096x256 .f32) (p : Fin 4096) (q : Fin 256) :
    k0_pay4 (F := Ideal) xb wb acc (ix2 p q) = acc (ix2 p q) + ∑ kk : Fin 512, xb (ix2 p kk) * wb (ix2 q kk) := by
  unfold k0_pay4 k0_pay3
  refine (congrFun (shapeCast_self _ _) _).trans ?_
  refine (addf_apply _ _ _).trans ?_
  refine congrArg (acc (ix2 p q) + ·) ?_
  refine (mm_xw_at _ _ p q).trans ?_
  refine Finset.sum_congr rfl fun kk _ => ?_
  exact congrArg (xb (ix2 p kk) * ·) (transpose_ix2_apply _ _ kk q)

/-- The low-rank accumulator gains entry (p, r) of x_blk·a_blkᵀ. -/
theorem pay5_at (xb : Vec Ideal S4096x512 .f32) (ab : Vec Ideal S16x512 .f32) (acc : Vec Ideal S4096x16 .f32) (p : Fin 4096) (r : Fin 16) :
    k0_pay5 (F := Ideal) xb ab acc (ix2 p r) = acc (ix2 p r) + ∑ kk : Fin 512, xb (ix2 p kk) * ab (ix2 r kk) := by
  unfold k0_pay5 k0_pay3
  refine (congrFun (shapeCast_self _ _) _).trans ?_
  refine (addf_apply _ _ _).trans ?_
  refine congrArg (acc (ix2 p r) + ·) ?_
  refine (mm_xa_at _ _ p r).trans ?_
  refine Finset.sum_congr rfl fun kk _ => ?_
  exact congrArg (xb (ix2 p kk) * ·) (transpose_ix2_apply _ _ kk r)

/-! ## The last step -/

/-- The stored entry is (acc + bias) + (entry (p, q) of xa·b_blkᵀ) * 2. -/
theorem pay6_at (bb : Vec Ideal S256x16 .f32) (xa : Vec Ideal S4096x16 .f32) (acc : Vec Ideal S4096x256 .f32) (bias : Vec Ideal S1x256 .f32) (p : Fin 4096) (q : Fin 256) :
    k0_pay6 (F := Ideal) bb xa acc bias (ix2 p q) = (acc (ix2 p q) + bias (ix2 (0 : Fin 1) q)) + (∑ r : Fin 16, xa (ix2 p r) * bb (ix2 q r)) * Cert.LowRank.two := by
  unfold k0_pay6
  refine (addf_apply _ _ _).trans ?_
  have e1 : ∀ (v : FVec Ideal S1x256 .f32) (h : S1x256.Broadcasts S4096x256),
      addf acc (broadcastTo S4096x256 v h) (ix2 p q) = acc (ix2 p q) + v (ix2 (0 : Fin 1) q) := fun v h =>
    (addf_apply _ _ _).trans (congrArg (acc (ix2 p q) + ·) (broadcastTo_1b_ab_apply v h p q))
  refine congrArg₂ (· + ·) ((e1 _ _).trans (congrArg (acc (ix2 p q) + ·) (congrFun (shapeCast_self bias _) _))) ?_
  refine (mulf_apply _ _ _).trans ?_
  refine congrArg (· * Cert.LowRank.two) ?_
  refine (mm_ub_at _ _ p q).trans ?_
  refine Finset.sum_congr rfl fun r _ => ?_
  exact congrArg (xa (ix2 p r) * ·) (transpose_ix2_apply _ _ r q)

end Cert.LowRank.Pay

end
-- ==== Proof.Fold.lean ====
/-
  WHAT THE TWO ACCUMULATORS HOLD AFTER ANY GRID POINT, and what the last step of a run writes out.

  The eight grid points of one reduction run (k = 0 … 7, point numbers 8a … 8a + 7) share their x-row
  band and their W/B band; point n adds to the dense accumulator its ADDEND
      addW n (p, q) = sum over kk of x_blk(n)[p, kk] * w_blk(n)[q, kk]
  and to the low-rank accumulator
      addA n (p, r) = sum over kk of x_blk(n)[p, kk] * a_blk(n)[r, kk].
  The first point of a run starts from the zero block, so after point n the accumulators hold the sum
  of the addends of the points n - n % 8, …, n (`acc_closed`, `xa_closed`: by induction on the point,
  never by listing the grid).  At the last point of a run the body writes
      (dense accumulator + bias row) + (low-rank accumulator · b_blkᵀ) · 2
  from the accumulators as that point leaves them (`out_last`).

  Over the extended reals the only laws used are 0 + a = a and the splitting of a sum over
  range (j + 2) into its first j + 1 terms and the last.
-/
import proofs.«144183_j44006234915015_1_alg».proof.Proof.Pieces
import proofs.«144183_j44006234915015_1_alg».proof.Proof.PayloadAt
import proofs.«144183_j44006234915015_1_alg».proof.Proof.Gen.KernelIdeal.Value

set_option maxRecDepth 16384

noncomputable section

open scoped BigOperators

namespace Cert.LowRank.Fold

open Cert.KernelIdeal Cert.KernelIdeal.Gen Idealize.ShloMosaic Idealize.ShloMosaic.TcCoe Idealize.SL.Sem Idealize.ShloMosaic.ValueIdx

variable (m : (ℓ : Loc nD τ sig) → Buf (Elt Ideal) ℓ)

/-- The five input blocks at a grid point, at their literal shapes. -/
abbrev xblk (c : Dev nD) (t : Fin cfg0.N) : Vec Ideal S4096x512 .f32 := iblk m c 0 t
abbrev wblk (c : Dev nD) (t : Fin cfg0.N) : Vec Ideal S256x512 .f32 := iblk m c 1 t
abbrev biasblk (c : Dev nD) (t : Fin cfg0.N) : Vec Ideal S1x256 .f32 := iblk m c 2 t
abbrev bblk (c : Dev nD) (t : Fin cfg0.N) : Vec Ideal S256x16 .f32 := iblk m c 3 t
abbrev ablk (c : Dev nD) (t : Fin cfg0.N) : Vec Ideal S16x512 .f32 := iblk m c 4 t

/-- What the two accumulators hold after point n. -/
abbrev accAfter (c : Dev nD) (n : ℕ) (h : n < cfg0.N) : Vec Ideal S4096x256 .f32 := (outsAt0 m c n h).2.1
abbrev xaAfter (c : Dev nD) (n : ℕ) (h : n < cfg0.N) : Vec Ideal S4096x16 .f32 := (outsAt0 m c n h).2.2
/-- What the output's staging block holds after point n. -/
abbrev outAfter (c : Dev nD) (n : ℕ) (h : n < cfg0.N) : Vec Ideal S4096x256 .f32 := (outsAt0 m c n h).1

/-- Point n's addend to the dense accumulator (zero past the grid, where it is never used). -/
def addW (c : Dev nD) (n : ℕ) (p : Fin 4096) (q : Fin 256) : EReal :=
  if h : n < cfg0.N then ∑ kk : Fin 512, xblk m c ⟨n, h⟩ (ix2 p kk) * wblk m c ⟨n, h⟩ (ix2 q kk) else 0

/-- Point n's addend to the low-rank accumulator. -/
def addA (c : Dev nD) (n : ℕ) (p : Fin 4096) (r : Fin 16) : EReal :=
  if h : n < cfg0.N then ∑ kk : Fin 512, xblk m c ⟨n, h⟩ (ix2 p kk) * ablk m c ⟨n, h⟩ (ix2 r kk) else 0

theorem addW_of_lt (c : Dev nD) (n : ℕ) (h : n < cfg0.N) (p : Fin 4096) (q : Fin 256) :
    addW m c n p q = ∑ kk : Fin 512, xblk m c ⟨n, h⟩ (ix2 p kk) * wblk m c ⟨n, h⟩ (ix2 q kk) := dif_pos h
theorem addA_of_lt (c : Dev nD) (n : ℕ) (h : n < cfg0.N) (p : Fin 4096) (r : Fin 16) :
    addA m c n p r = ∑ kk : Fin 512, xblk m c ⟨n, h⟩ (ix2 p kk) * ablk m c ⟨n, h⟩ (ix2 r kk) := dif_pos h

/-! ## One point: a reset, or a step from the point before -/

/-- At the first point of a run the dense accumulator ends at that point's addend. -/
theorem acc_reset (c : Dev nD) (n : ℕ) (h : n < cfg0.N) (h0 : n % 8 = 0) (p : Fin 4096) (q : Fin 256) :
    accAfter m c n h (ix2 p q) = addW m c n p q := by
  have h1 : ¬(⟨n, h⟩ : Fin cfg0.N).val % 8 = 7 := by dsimp only; omega
  have e := congrArg (fun z => z.2.1) (outsAt0_A m c ⟨n, h⟩ h0 h1)
  dsimp only at e
  show (outsAt0 m c n h).2.1 (ix2 p q) = _
  rw [e, Pieces.acc_A, Pay.pay4_at, Pay.pay1_at, zero_add, addW_of_lt m c n h]

/-- At the first point of a run the low-rank accumulator ends at that point's addend. -/
theorem xa_reset (c : Dev nD) (n : ℕ) (h : n < cfg0.N) (h0 : n % 8 = 0) (p : Fin 4096) (r : Fin 16) :
    xaAfter m c n h (ix2 p r) = addA m c n p r := by
  have h1 : ¬(⟨n, h⟩ : Fin cfg0.N).val % 8 = 7 := by dsimp only; omega
  have e := congrArg (fun z => z.2.2) (outsAt0_A m c ⟨n, h⟩ h0 h1)
  dsimp only at e
  show (outsAt0 m c n h).2.2 (ix2 p r) = _
  rw [e, Pieces.xa_A, Pay.pay5_at, Pay.pay2_at, zero_add, addA_of_lt m c n h]

/-- At any later point of a run the dense accumulator gains that point's addend. -/
theorem acc_step (c : Dev nD) (n : ℕ) (h : n + 1 < cfg0.N) (h0 : ¬(n + 1) % 8 = 0) (p : Fin 4096) (q : Fin 256) :
    accAfter m c (n + 1) h (ix2 p q) = accAfter m c n (Nat.lt_of_succ_lt h) (ix2 p q) + addW m c (n + 1) p q := by
  show (outsAt0 m c (n + 1) h).2.1 (ix2 p q) = (outsAt0 m c n _).2.1 (ix2 p q) + _
  by_cases h1 : (n + 1) % 8 = 7
  · have e := congrArg (fun z => z.2.1) (outsAt0_C m c ⟨n + 1, h⟩ h0 h1)
    dsimp only at e
    rw [e, Pieces.acc_C, Pay.pay4_at, addW_of_lt m c (n + 1) h]
    rfl
  · have e := congrArg (fun z => z.2.1) (outsAt0_B m c ⟨n + 1, h⟩ h0 h1)
    dsimp only at e
    rw [e, Pieces.acc_B, Pay.pay4_at, addW_of_lt m c (n + 1) h]
    rfl

/-- At any later point of a run the low-rank accumulator gains that point's addend. -/
theorem xa_step (c : Dev nD) (n : ℕ) (h : n + 1 < cfg0.N) (h0 : ¬(n + 1) % 8 = 0) (p : Fin 4096) (r : Fin 16) :
    xaAfter m c (n + 1) h (ix2 p r) = xaAfter m c n (Nat.lt_of_succ_lt h) (ix2 p r) + addA m c (n + 1) p r := by
  show (outsAt0 m c (n + 1) h).2.2 (ix2 p r) = (outsAt0 m c n _).2.2 (ix2 p r) + _
  by_cases h1 : (n + 1) % 8 = 7
  · have e := congrArg (fun z => z.2.2) (outsAt0_C m c ⟨n + 1, h⟩ h0 h1)
    dsimp only at e
    rw [e, Pieces.xa_C, Pay.pay5_at, addA_of_lt m c (n + 1) h]
    rfl
  · have e := congrArg (fun z => z.2.2) (outsAt0_B m c ⟨n + 1, h⟩ h0 h1)
    dsimp only at e
    rw [e, Pieces.xa_B, Pay.pay5_at, addA_of_lt m c (n + 1) h]
    rfl

/-! ## Any point: the sum of the run's addends so far -/

/-- After point n the dense accumulator holds the addends of the points n - n % 8, …, n. -/
theorem acc_closed (c : Dev nD) : ∀ (n : ℕ) (h : n < cfg0.N) (p : Fin 4096) (q : Fin 256),
    accAfter m c n h (ix2 p q) = ∑ s ∈ Finset.range (n % 8 + 1), addW m c (n - n % 8 + s) p q
  | 0, h, p, q => by
    rw [acc_reset m c 0 h rfl]
    simp
  | n + 1, h, p, q => by
    by_cases h0 : (n + 1) % 8 = 0
    · rw [acc_reset m c (n + 1) h h0, h0, Finset.sum_range_one]
      simp
    · rw [acc_step m c n h h0, acc_closed c n (Nat.lt_of_succ_lt h) p q]
      have e1 : (n + 1) % 8 = n % 8 + 1 := by omega
      have e2 : n + 1 - (n % 8 + 1) = n - n % 8 := by omega
      have e3 : n - n % 8 + (n % 8 + 1) = n + 1 := by omega
      rw [e1, e2, Finset.sum_range_succ _ (n % 8 + 1), e3]

/-- After point n the low-rank accumulator holds the addends of the points n - n % 8, …, n. -/
theorem xa_closed (c : Dev nD) : ∀ (n : ℕ) (h : n < cfg0.N) (p : Fin 4096) (r : Fin 16),
    xaAfter m c n h (ix2 p r) = ∑ s ∈ Finset.range (n % 8 + 1), addA m c (n - n % 8 + s) p r
  | 0, h, p, r => by
    rw [xa_reset m c 0 h rfl]
    simp
  | n + 1, h, p, r => by
    by_cases h0 : (n + 1) % 8 = 0
    · rw [xa_reset m c (n + 1) h h0, h0, Finset.sum_range_one]
      simp
    · rw [xa_step m c n h h0, xa_closed c n (Nat.lt_of_succ_lt h) p r]
      have e1 : (n + 1) % 8 = n % 8 + 1 := by omega
      have e2 : n + 1 - (n % 8 + 1) = n - n % 8 := by omega
      have e3 : n - n % 8 + (n % 8 + 1) = n + 1 := by omega
      rw [e1, e2, Finset.sum_range_succ _ (n % 8 + 1), e3]

/-! ## The last point of a run writes the output block -/

/-- At the last point of a run the output block is (dense + bias row) + (low-rank · b_blkᵀ) · 2 over the two
    accumulators as that point leaves them. -/
theorem out_last (c : Dev nD) (t : Fin cfg0.N) (h1 : t.val % 8 = 7) (p : Fin 4096) (q : Fin 256) :
    outAfter m c t.val t.isLt (ix2 p q)
      = (accAfter m c t.val t.isLt (ix2 p q) + biasblk m c t (ix2 (0 : Fin 1) q))
        + (∑ r : Fin 16, xaAfter m c t.val t.isLt (ix2 p r) * bblk m c t (ix2 q r)) * Cert.LowRank.two := by
  have h0 : ¬t.val % 8 = 0 := by omega
  have e := outsAt0_C m c t h0 h1
  show (outsAt0 m c t.val t.isLt).1 (ix2 p q)
    = ((outsAt0 m c t.val t.isLt).2.1 (ix2 p q) + _) + (∑ r : Fin 16, (outsAt0 m c t.val t.isLt).2.2 (ix2 p r) * _) * _
  rw [e]
  dsimp only
  rw [Pieces.out_C, Pieces.acc_C, Pieces.xa_C, Pay.pay6_at]

end Cert.LowRank.Fold

end
-- ==== Proof.Blocks.lean ====
/-
  EACH WINDOW'S BLOCK AT A GRID POINT, read at an index, is the argument array at the offset index.

  The grid has 2 × 43 × 8 = 688 points; point number t stands for the coordinates
      i = t / 344   (which 4096-row band of x and of the result),
      j = t / 8 % 43 (which 256-row band of W and B, and 256-column band of the bias and the result),
      k = t % 8     (which 512-column band of x, W and A: the reduction axis).
  A window's block index at a point is a pair of these numbers or zero (`idxN`: decided once over
  the 688 points), and the element (a, b) of a block sits in its array at
  (block row index × block rows + a, block column index × block columns + b).

  The bias reaches the kernel as the [1, 11008] array a reshape makes of the [11008] argument
  before the kernel is launched; its block is read through that reshape.
-/
import proofs.«144183_j44006234915015_1_alg».proof.Proof.Gen.KernelIdeal.Value
import Idealize.ShloMosaic.Lib.ValueIdx
import Idealize.ShloMosaic.Lib.ValueLayout
import Idealize.ShloMosaic.Lib.StableHlo.Run

set_option maxRecDepth 16384

noncomputable section

namespace Cert.LowRank.Blocks

open Cert.KernelIdeal Cert.KernelIdeal.Gen Idealize.ShloMosaic Idealize.ShloMosaic.TcCoe Idealize.SL.Sem Idealize.ShloMosaic.ValueIdx

variable {F : FTy → Type} [FloatOps F]
variable (m : (ℓ : Loc nD τ sig) → Buf (Elt F) ℓ)

/-- The number of grid points. -/
theorem N_eq : cfg0.N = 688 := N_0

/-! ## The windows' block indices in closed form -/

/-- x's block at point t is (i, k). -/
theorem idx0 : ∀ t : Fin cfg0.N, win0_0.index t (0 : Fin 2) = t.val / 344 ∧ win0_0.index t (1 : Fin 2) = t.val % 8 :=
  (by decide +kernel : ∀ t : Fin grid0.N, win0_0.index t (0 : Fin 2) = t.val / 344 ∧ win0_0.index t (1 : Fin 2) = t.val % 8)
/-- W's block at point t is (j, k). -/
theorem idx1 : ∀ t : Fin cfg0.N, win0_1.index t (0 : Fin 2) = t.val / 8 % 43 ∧ win0_1.index t (1 : Fin 2) = t.val % 8 :=
  (by decide +kernel : ∀ t : Fin grid0.N, win0_1.index t (0 : Fin 2) = t.val / 8 % 43 ∧ win0_1.index t (1 : Fin 2) = t.val % 8)
/-- The bias row's block at point t is (0, j). -/
theorem idx2 : ∀ t : Fin cfg0.N, win0_2.index t (0 : Fin 2) = 0 ∧ win0_2.index t (1 : Fin 2) = t.val / 8 % 43 :=
  (by decide +kernel : ∀ t : Fin grid0.N, win0_2.index t (0 : Fin 2) = 0 ∧ win0_2.index t (1 : Fin 2) = t.val / 8 % 43)
/-- B's block at point t is (j, 0). -/
theorem idx3 : ∀ t : Fin cfg0.N, win0_3.index t (0 : Fin 2) = t.val / 8 % 43 ∧ win0_3.index t (1 : Fin 2) = 0 :=
  (by decide +kernel : ∀ t : Fin grid0.N, win0_3.index t (0 : Fin 2) = t.val / 8 % 43 ∧ win0_3.index t (1 : Fin 2) = 0)
/-- A's block at point t is (0, k). -/
theorem idx4 : ∀ t : Fin cfg0.N, win0_4.index t (0 : Fin 2) = 0 ∧ win0_4.index t (1 : Fin 2) = t.val % 8 :=
  (by decide +kernel : ∀ t : Fin grid0.N, win0_4.index t (0 : Fin 2) = 0 ∧ win0_4.index t (1 : Fin 2) = t.val % 8)
/-- The result's block at point t is (i, j). -/
theorem idx5 : ∀ t : Fin cfg0.N, win0_5.index t (0 : Fin 2) = t.val / 344 ∧ win0_5.index t (1 : Fin 2) = t.val / 8 % 43 :=
  (by decide +kernel : ∀ t : Fin grid0.N, win0_5.index t (0 : Fin 2) = t.val / 344 ∧ win0_5.index t (1 : Fin 2) = t.val / 8 % 43)

/-! ## Offsets stay inside the arrays -/

theorem row_lt (t : Fin cfg0.N) (p : Fin 4096) : t.val / 344 * 4096 + p.val < 8192 := by
  have := t.isLt; have : cfg0.N = 688 := N_0; have := p.isLt; omega
theorem col_lt (t : Fin cfg0.N) (q : Fin 256) : t.val / 8 % 43 * 256 + q.val < 11008 := by
  have := q.isLt; have := Nat.mod_lt (t.val / 8) (show 0 < 43 by decide); omega
theorem red_lt (t : Fin cfg0.N) (kk : Fin 512) : t.val % 8 * 512 + kk.val < 4096 := by
  have := kk.isLt; have := Nat.mod_lt t.val (show 0 < 8 by decide); omega

/-- Row p of band i, column q of band j, reduction entry kk of band k, as indices into the arrays. -/
abbrev rowOf (t : Fin cfg0.N) (p : Fin 4096) : Fin 8192 := ⟨t.val / 344 * 4096 + p.val, row_lt t p⟩
abbrev colOf (t : Fin cfg0.N) (q : Fin 256) : Fin 11008 := ⟨t.val / 8 % 43 * 256 + q.val, col_lt t q⟩
abbrev redOf (t : Fin cfg0.N) (kk : Fin 512) : Fin 4096 := ⟨t.val % 8 * 512 + kk.val, red_lt t kk⟩

/-! ## The five input blocks read at an index -/

/-- x's block: rows of band i, reduction entries of band k. -/
theorem xblk_at (c : Dev nD) (t : Fin cfg0.N) (p : Fin 4096) (kk : Fin 512) :
    (iblk m c 0 t : Vec F S4096x512 .f32) (ix2 p kk)
      = m ((c : Thread nD τ).loc main_arg0) (ix2 (rowOf t p) (redOf t kk)) := by
  unfold iblk
  rw [View.read_apply]
  show V m c main_arg0 (((cfg0.win 0).blk t).view.emb (ix2 p kk)) = _
  rw [V_main_arg0]
  refine congrArg _ (funext fun a => Fin.ext ?_)
  match a with
  | ⟨0, _⟩ => show win0_0.index t 0 * 4096 + 1 * p.val = t.val / 344 * 4096 + p.val; rw [(idx0 t).1]; omega
  | ⟨1, _⟩ => show win0_0.index t 1 * 512 + 1 * kk.val = t.val % 8 * 512 + kk.val; rw [(idx0 t).2]; omega

/-- W's block: rows of band j, reduction entries of band k. -/
theorem wblk_at (c : Dev nD) (t : Fin cfg0.N) (q : Fin 256) (kk : Fin 512) :
    (iblk m c 1 t : Vec F S256x512 .f32) (ix2 q kk)
      = m ((c : Thread nD τ).loc main_arg1) (ix2 (colOf t q) (redOf t kk)) := by
  unfold iblk
  rw [View.read_apply]
  show V m c main_arg1 (((cfg0.win 1).blk t).view.emb (ix2 q kk)) = _
  rw [V_main_arg1]
  refine congrArg _ (funext fun a => Fin.ext ?_)
  match a with
  | ⟨0, _⟩ => show win0_1.index t 0 * 256 + 1 * q.val = t.val / 8 % 43 * 256 + q.val; rw [(idx1 t).1]; omega
  | ⟨1, _⟩ => show win0_1.index t 1 * 512 + 1 * kk.val = t.val % 8 * 512 + kk.val; rw [(idx1 t).2]; omega

/-- The [1, 11008] array the kernel is launched on is the bias argument, reshaped. -/
theorem V_bias (c : Dev nD) :
    (V m c main_v0 : S1x11008.Idx → Elt F .f32)
      = shapeCast S1x11008 (m ((c : Thread nD τ).loc main_arg2)) shapeCasts_S11008_S1x11008 := by
  dsimp only [V, hostOps0]
  after_results
  rfl

/-- The bias row's block: columns of band j. -/
theorem biasblk_at (c : Dev nD) (t : Fin cfg0.N) (q : Fin 256) :
    (iblk m c 2 t : Vec F S1x256 .f32) (ix2 (0 : Fin 1) q)
      = m ((c : Thread nD τ).loc main_arg2) (ix1 (colOf t q)) := by
  unfold iblk
  rw [View.read_apply]
  show V m c main_v0 (((cfg0.win 2).blk t).view.emb (ix2 (0 : Fin 1) q)) = _
  rw [V_bias]
  refine (congrArg _ (funext fun a => Fin.ext ?_)).trans
    (shapeCast_a_1a_apply (m ((c : Thread nD τ).loc main_arg2)) shapeCasts_S11008_S1x11008 (0 : Fin 1) (colOf t q))
  match a with
  | ⟨0, _⟩ => show win0_2.index t 0 * 1 + 1 * 0 = 0; rw [(idx2 t).1]
  | ⟨1, _⟩ => show win0_2.index t 1 * 256 + 1 * q.val = t.val / 8 % 43 * 256 + q.val; rw [(idx2 t).2]; omega

/-- B's block: rows of band j, all 16 directions. -/
theorem bblk_at (c : Dev nD) (t : Fin cfg0.N) (q : Fin 256) (r : Fin 16) :
    (iblk m c 3 t : Vec F S256x16 .f32) (ix2 q r)
      = m ((c : Thread nD τ).loc main_arg3) (ix2 (colOf t q) r) := by
  unfold iblk
  rw [View.read_apply]
  show V m c main_arg3 (((cfg0.win 3).blk t).view.emb (ix2 q r)) = _
  rw [V_main_arg3]
  refine congrArg _ (funext fun a => Fin.ext ?_)
  match a with
  | ⟨0, _⟩ => show win0_3.index t 0 * 256 + 1 * q.val = t.val / 8 % 43 * 256 + q.val; rw [(idx3 t).1]; omega
  | ⟨1, _⟩ => show win0_3.index t 1 * 16 + 1 * r.val = r.val; rw [(idx3 t).2]; omega

/-- A's block: all 16 directions, reduction entries of band k. -/
theorem ablk_at (c : Dev nD) (t : Fin cfg0.N) (r : Fin 16) (kk : Fin 512) :
    (iblk m c 4 t : Vec F S16x512 .f32) (ix2 r kk)
      = m ((c : Thread nD τ).loc main_arg4) (ix2 r (redOf t kk)) := by
  unfold iblk
  rw [View.read_apply]
  show V m c main_arg4 (((cfg0.win 4).blk t).view.emb (ix2 r kk)) = _
  rw [V_main_arg4]
  refine congrArg _ (funext fun a => Fin.ext ?_)
  match a with
  | ⟨0, _⟩ => show win0_4.index t 0 * 16 + 1 * r.val = r.val; rw [(idx4 t).1]; omega
  | ⟨1, _⟩ => show win0_4.index t 1 * 512 + 1 * kk.val = t.val % 8 * 512 + kk.val; rw [(idx4 t).2]; omega

end Cert.LowRank.Blocks

end
-- ==== Proof.Final.lean ====
/-
  FROM THE OUTPUT BLOCKS TO THE WHOLE RESULT ARRAY.

  The result array is written back only at the last point of each reduction run (point numbers
  ≡ 7 mod 8), one [4096, 256] block per run, at block position (i, j).  This module shows that the block
  written there is the block of the function `kernelForm` of the five argument arrays:

  * the eight addends of a run are the eight 512-wide bands of one row-by-row product, so their sum is
    the full sum over the 4096 reduction entries (`sum_blocks`): the dense accumulator ends at x·Wᵀ and
    the low-rank accumulator at x·Aᵀ, both read at rows of band i;
  * the bias row's block and B's block are read at the columns, respectively rows, of band j;
  * so the block written at the last point is `kernelAt` at (row of band i, column of band j).

  The 2 × 43 blocks tile the [8192, 11008] array: the index (P, Q) lies in the block of the run with
  i = P / 4096 and j = Q / 256, whose last point is number ((i · 43 + j) · 8 + 7).
-/
import proofs.«144183_j44006234915015_1_alg».proof.Proof.Fold
import proofs.«144183_j44006234915015_1_alg».proof.Proof.Blocks
import proofs.«144183_j44006234915015_1_alg».proof.Proof.Spec

set_option maxRecDepth 16384

noncomputable section

open scoped BigOperators

namespace Cert.LowRank.Final

open Cert.KernelIdeal Cert.KernelIdeal.Gen Idealize.ShloMosaic Idealize.ShloMosaic.TcCoe Idealize.SL.Sem Idealize.ShloMosaic.ValueIdx
open Cert.LowRank.Blocks Cert.LowRank.Fold
open Idealize.ShloMosaic.Pipeline (Dat)

variable (m : (ℓ : Loc nD τ sig) → Buf (Elt Ideal) ℓ) (ρ : Dev nD → PrngReg)

/-- The five argument arrays as launched. -/
abbrev argX (c : Dev nD) : SX.Idx → EReal := m ((c : Thread nD τ).loc main_arg0)
abbrev argW (c : Dev nD) : SW.Idx → EReal := m ((c : Thread nD τ).loc main_arg1)
abbrev argb (c : Dev nD) : Sb.Idx → EReal := m ((c : Thread nD τ).loc main_arg2)
abbrev argB (c : Dev nD) : SB.Idx → EReal := m ((c : Thread nD τ).loc main_arg3)
abbrev argA (c : Dev nD) : SA.Idx → EReal := m ((c : Thread nD τ).loc main_arg4)

/-- The result array the kernel ends with: the layer with the low-rank term projected down, then up. -/
abbrev result (c : Dev nD) : Buf (Elt Ideal) ((c : Thread nD τ).loc main_v1) :=
  kernelForm (argX m c) (argW m c) (argb m c) (argB m c) (argA m c)

/-! ## The block reads, over the blocks' names -/

theorem xblk_eq (c : Dev nD) (t : Fin cfg0.N) (p : Fin 4096) (kk : Fin 512) :
    xblk m c t (ix2 p kk) = argX m c (ix2 (rowOf t p) (redOf t kk)) := xblk_at m c t p kk
theorem wblk_eq (c : Dev nD) (t : Fin cfg0.N) (q : Fin 256) (kk : Fin 512) :
    wblk m c t (ix2 q kk) = argW m c (ix2 (colOf t q) (redOf t kk)) := wblk_at m c t q kk
theorem biasblk_eq (c : Dev nD) (t : Fin cfg0.N) (q : Fin 256) :
    biasblk m c t (ix2 (0 : Fin 1) q) = argb m c (ix1 (colOf t q)) := biasblk_at m c t q
theorem bblk_eq (c : Dev nD) (t : Fin cfg0.N) (q : Fin 256) (r : Fin 16) :
    bblk m c t (ix2 q r) = argB m c (ix2 (colOf t q) r) := bblk_at m c t q r
theorem ablk_eq (c : Dev nD) (t : Fin cfg0.N) (r : Fin 16) (kk : Fin 512) :
    ablk m c t (ix2 r kk) = argA m c (ix2 r (redOf t kk)) := ablk_at m c t r kk

/-! ## A run's eight addends are the eight bands of one sum -/

/-- The points of the run that ends at point t (t ≡ 7 mod 8) share t's row band and column band, and the
    s-th of them reads the s-th reduction band. -/
theorem run_point (t : Fin cfg0.N) (h1 : t.val % 8 = 7) (s : ℕ) (hs : s < 8) :
    t.val - 7 + s < cfg0.N ∧ (t.val - 7 + s) / 344 = t.val / 344 ∧ (t.val - 7 + s) / 8 % 43 = t.val / 8 % 43
      ∧ (t.val - 7 + s) % 8 = s := by
  have := t.isLt; have hN : cfg0.N = 688 := N_0
  omega

/-- The dense accumulator after the last point of a run is x·Wᵀ at the run's rows and columns. -/
theorem acc_last (c : Dev nD) (t : Fin cfg0.N) (h1 : t.val % 8 = 7) (p : Fin 4096) (q : Fin 256) :
    accAfter m c t.val t.isLt (ix2 p q) = dense (argX m c) (argW m c) (rowOf t p) (colOf t q) := by
  rw [acc_closed m c t.val t.isLt p q, h1]
  let g : ℕ → EReal := fun k => if h : k < 4096 then argX m c (ix2 (rowOf t p) ⟨k, h⟩) * argW m c (ix2 (colOf t q) ⟨k, h⟩) else 0
  have hg : ∀ s ∈ Finset.range (7 + 1), addW m c (t.val - 7 + s) p q = ∑ kk : Fin 512, g (512 * s + kk.val) := by
    intro s hs
    have hs8 : s < 8 := by simpa using hs
    obtain ⟨hlt, e0, e1, e2⟩ := run_point t h1 s hs8
    rw [addW_of_lt m c _ hlt]
    refine Finset.sum_congr rfl fun kk _ => ?_
    have hk : 512 * s + kk.val < 4096 := by have := kk.isLt; omega
    show xblk m c ⟨t.val - 7 + s, hlt⟩ (ix2 p kk) * wblk m c ⟨t.val - 7 + s, hlt⟩ (ix2 q kk) = g (512 * s + kk.val)
    rw [show g (512 * s + kk.val) = argX m c (ix2 (rowOf t p) ⟨512 * s + kk.val, hk⟩) * argW m c (ix2 (colOf t q) ⟨512 * s + kk.val, hk⟩) from dif_pos hk]
    rw [xblk_eq m c ⟨t.val - 7 + s, hlt⟩ p kk, wblk_eq m c ⟨t.val - 7 + s, hlt⟩ q kk]
    have r1 : rowOf (⟨t.val - 7 + s, hlt⟩ : Fin cfg0.N) p = rowOf t p := Fin.ext (by show (t.val - 7 + s) / 344 * 4096 + p.val = t.val / 344 * 4096 + p.val; rw [e0])
    have r2 : colOf (⟨t.val - 7 + s, hlt⟩ : Fin cfg0.N) q = colOf t q := Fin.ext (by show (t.val - 7 + s) / 8 % 43 * 256 + q.val = t.val / 8 % 43 * 256 + q.val; rw [e1])
    have r3 : redOf (⟨t.val - 7 + s, hlt⟩ : Fin cfg0.N) kk = (⟨512 * s + kk.val, hk⟩ : Fin 4096) := Fin.ext (by show (t.val - 7 + s) % 8 * 512 + kk.val = 512 * s + kk.val; rw [e2]; omega)
    rw [r1, r2, r3]
  rw [Finset.sum_congr rfl hg, sum_blocks g]
  unfold dense
  exact Finset.sum_congr rfl fun k _ => dif_pos k.isLt

/-- The low-rank accumulator after the last point of a run is x·Aᵀ at the run's rows. -/
theorem xa_last (c : Dev nD) (t : Fin cfg0.N) (h1 : t.val % 8 = 7) (p : Fin 4096) (r : Fin 16) :
    xaAfter m c t.val t.isLt (ix2 p r) = down (argX m c) (argA m c) (rowOf t p) r := by
  rw [xa_closed m c t.val t.isLt p r, h1]
  let g : ℕ → EReal := fun k => if h : k < 4096 then argX m c (ix2 (rowOf t p) ⟨k, h⟩) * argA m c (ix2 r ⟨k, h⟩) else 0
  have hg : ∀ s ∈ Finset.range (7 + 1), addA m c (t.val - 7 + s) p r = ∑ kk : Fin 512, g (512 * s + kk.val) := by
    intro s hs
    have hs8 : s < 8 := by simpa using hs
    obtain ⟨hlt, e0, e1, e2⟩ := run_point t h1 s hs8
    rw [addA_of_lt m c _ hlt]
    refine Finset.sum_congr rfl fun kk _ => ?_
    have hk : 512 * s + kk.val < 4096 := by have := kk.isLt; omega
    show xblk m c ⟨t.val - 7 + s, hlt⟩ (ix2 p kk) * ablk m c ⟨t.val - 7 + s, hlt⟩ (ix2 r kk) = g (512 * s + kk.val)
    rw [show g (512 * s + kk.val) = argX m c (ix2 (rowOf t p) ⟨512 * s + kk.val, hk⟩) * argA m c (ix2 r ⟨512 * s + kk.val, hk⟩) from dif_pos hk]
    rw [xblk_eq m c ⟨t.val - 7 + s, hlt⟩ p kk, ablk_eq m c ⟨t.val - 7 + s, hlt⟩ r kk]
    have r1 : rowOf (⟨t.val - 7 + s, hlt⟩ : Fin cfg0.N) p = rowOf t p := Fin.ext (by show (t.val - 7 + s) / 344 * 4096 + p.val = t.val / 344 * 4096 + p.val; rw [e0])
    have r3 : redOf (⟨t.val - 7 + s, hlt⟩ : Fin cfg0.N) kk = (⟨512 * s + kk.val, hk⟩ : Fin 4096) := Fin.ext (by show (t.val - 7 + s) % 8 * 512 + kk.val = 512 * s + kk.val; rw [e2]; omega)
    rw [r1, r3]
  rw [Finset.sum_congr rfl hg, sum_blocks g]
  unfold down
  exact Finset.sum_congr rfl fun k _ => dif_pos k.isLt

/-- The output block after the last point of a run is the layer's entry at the run's rows and columns. -/
theorem out_at (c : Dev nD) (t : Fin cfg0.N) (h1 : t.val % 8 = 7) (p : Fin 4096) (q : Fin 256) :
    outAfter m c t.val t.isLt (ix2 p q)
      = kernelAt (argX m c) (argW m c) (argb m c) (argB m c) (argA m c) (rowOf t p) (colOf t q) := by
  rw [out_last m c t h1 p q, acc_last m c t h1 p q]
  show (_ + biasblk m c t (ix2 (0 : Fin 1) q)) + (∑ r : Fin 16, xaAfter m c t.val t.isLt (ix2 p r) * bblk m c t (ix2 q r)) * two = _
  rw [biasblk_eq m c t q, Finset.sum_congr rfl fun r _ => by rw [xa_last m c t h1 p r, bblk_eq m c t q r]]
  rfl

/-! ## The block written back, and the whole array -/

/-- Element (p, q) of the block of the run ending at t sits in the result array at (row of band i, column of band j). -/
theorem emb5 (t : Fin cfg0.N) (p : Fin 4096) (q : Fin 256) :
    ((cfg0.win 5).blk t).view.emb (ix2 p q) = ix2 (rowOf t p) (colOf t q) := by
  funext a
  apply Fin.ext
  match a with
  | ⟨0, _⟩ => show win0_5.index t 0 * 4096 + 1 * p.val = t.val / 344 * 4096 + p.val; rw [(idx5 t).1]; omega
  | ⟨1, _⟩ => show win0_5.index t 1 * 256 + 1 * q.val = t.val / 8 % 43 * 256 + q.val; rw [(idx5 t).2]; omega

/-- What a writing point writes back is its block of the layer's function of the arguments. -/
theorem flushed_eq (c : Dev nD) (t : Fin cfg0.N) (hf : (cfg0.win 5).flush t = true) :
    (dats m 0 c).flushed 5 t = ((cfg0.win 5).blk t).view.read (Elt Ideal) (result m c) := by
  have h1 : t.val % 8 = 7 := (flush0_5 t).mp hf
  rw [Cert.KernelIdeal.Value.flushed5]
  refine funext fun (j : S4096x256.Idx) => ?_
  obtain ⟨p, q, rfl⟩ : ∃ (p : Fin 4096) (q : Fin 256), j = ix2 p q := ⟨j 0, j 1, eq_ix2 j⟩
  show outAfter m c t.val t.isLt (ix2 p q) = result m c (((cfg0.win 5).blk t).view.emb (ix2 p q))
  rw [emb5, out_at m c t h1 p q]
  rfl

/-- An index of the result array is in point t's block iff each coordinate is in the block's range on its axis. -/
theorem mem_blk5 (t : Fin cfg0.N) (i : S8192x11008.Idx) :
    i ∈ ((cfg0.win 5).blk t).view.set ↔ ∀ a : Fin 2, win0_5.index t a * S4096x256.size a ≤ (i a).val ∧ (i a).val < win0_5.index t a * S4096x256.size a + S4096x256.size a := by
  show i ∈ ((View.whole main_v1).slice (win0_5.rect t)).set ↔ _
  rw [View.set_slice_whole, Rect.mem_set_unit]
  exact Iff.rfl

/-- Every index of the result array lies in the block some run's last point writes back. -/
theorem cover (i : S8192x11008.Idx) :
    ∃ t : Fin cfg0.N, (cfg0.win 5).flush t = true ∧ i ∈ ((cfg0.win 5).blk t).view.set := by
  have hi0 : (i 0).val < 8192 := (i 0).isLt
  have hi1 : (i 1).val < 11008 := (i 1).isLt
  have hN : cfg0.N = 688 := N_0
  obtain ⟨n, hn⟩ : ∃ n, n = ((i 0).val / 4096 * 43 + (i 1).val / 256) * 8 + 7 := ⟨_, rfl⟩
  have hlt : n < cfg0.N := by omega
  refine ⟨⟨n, hlt⟩, (flush0_5 _).mpr (by show n % 8 = 7; omega), ?_⟩
  rw [mem_blk5]
  intro a
  obtain ⟨e0, e1⟩ := idx5 ⟨n, hlt⟩
  match a with
  | ⟨0, _⟩ =>
    show win0_5.index ⟨n, hlt⟩ 0 * 4096 ≤ (i 0).val ∧ (i 0).val < win0_5.index ⟨n, hlt⟩ 0 * 4096 + 4096
    rw [e0]
    show n / 344 * 4096 ≤ (i 0).val ∧ (i 0).val < n / 344 * 4096 + 4096
    omega
  | ⟨1, _⟩ =>
    show win0_5.index ⟨n, hlt⟩ 1 * 256 ≤ (i 1).val ∧ (i 1).val < win0_5.index ⟨n, hlt⟩ 1 * 256 + 256
    rw [e1]
    show n / 8 % 43 * 256 ≤ (i 1).val ∧ (i 1).val < n / 8 % 43 * 256 + 256
    omega

/-- So the result array ends holding the layer's function of the arguments. -/
theorem final (c : Dev nD) : (dats m 0 c).arrAt 5 cfg0.N = result m c :=
  (dats m 0 c).arrAt_eq_of_cover 5 (result m c) (flushed_eq m c) cover

/-- The kernel's run, read: the result array at the layer's function of the arguments, the arguments unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩)
    (Cert.KernelIdeal.Value.run_blocks m ρ)

end Cert.LowRank.Final

end
-- ==== Proof.lean ====
/-
  A low-rank-adapted dense layer, out = x·Wᵀ + bias + (x·(B·A)ᵀ)·(alpha / r) with alpha / r = 2, computed by a
  blocked kernel and by a plain reference, agree over the extended reals whenever the inputs are finite.

  THE KERNEL tiles the [8192, 11008] result into 2 × 43 blocks of [4096, 256] and walks the 4096-long
  contraction in 8 bands of 512.  For one result block it keeps two accumulators: the dense one gathers
  x_blk·w_blkᵀ band by band, the low-rank one gathers x_blk·a_blkᵀ band by band — so the full-rank product
  B·A is never formed.  After the last band it writes
      (dense accumulator + bias row) + (low-rank accumulator · b_blkᵀ) · 2.
  Read at an index (P, Q) this is
      (∑ₖ x[P,k]·W[Q,k] + bias[Q]) + (∑ᵣ (∑ₖ x[P,k]·A[r,k])·B[Q,r]) · 2          (kernelForm).
  THE REFERENCE forms B·A first and computes
      (∑ₖ x[P,k]·W[Q,k] + bias[Q]) + (∑ₖ x[P,k]·(∑ᵣ B[Q,r]·A[r,k])) · 2          (referenceForm).

  The dense term, the bias and the factor 2 are the same words on both sides.  The two low-rank terms are
  the same double sum of the products x[P,k]·A[r,k]·B[Q,r] taken in two orders; exchanging the order uses
  distributivity, which holds on the extended reals only away from the infinities, so this is where the
  precondition (every input finite) is used, for x, A and B.

  The modules: Algebra (the regrouping law and the cutting of a long sum into bands), Spec (the two forms and
  their equality), RefSide (the reference is referenceForm), Finite (finite inputs are real numbers),
  PayloadAt (the body's arithmetic at an index), Pieces (what each control case leaves behind), Blocks (a
  window's block is its array at an offset), Fold (the accumulators as sums of addends), Final (the blocks
  tile the result array: the kernel ends at kernelForm).

  The three frame claims: the two kernels' are the generated frames; the reference's is its generated run with
  the result dropped.  The ideal pass rewrote nothing, so the preservation claim is trivial.
-/
import proofs.«144183_j44006234915015_1_alg».proof.Defs
import proofs.«144183_j44006234915015_1_alg».proof.Proof.Gen.Kernel
import proofs.«144183_j44006234915015_1_alg».proof.Proof.Gen.Kernel.Skeleton
import proofs.«144183_j44006234915015_1_alg».proof.Proof.Gen.Kernel.Launch
import proofs.«144183_j44006234915015_1_alg».proof.Proof.Gen.Kernel.Points
import proofs.«144183_j44006234915015_1_alg».proof.Proof.Gen.Kernel.Frame
import proofs.«144183_j44006234915015_1_alg».proof.Proof.Gen.KernelIdeal
import proofs.«144183_j44006234915015_1_alg».proof.Proof.Gen.KernelIdeal.Skeleton
import proofs.«144183_j44006234915015_1_alg».proof.Proof.Gen.KernelIdeal.Launch
import proofs.«144183_j44006234915015_1_alg».proof.Proof.Gen.KernelIdeal.Points
import proofs.«144183_j44006234915015_1_alg».proof.Proof.Gen.KernelIdeal.Frame
import proofs.«144183_j44006234915015_1_alg».proof.Proof.Gen.ReferenceIdeal
import proofs.«144183_j44006234915015_1_alg».proof.Proof.Gen.Pre_finite_inputs
import proofs.«144183_j44006234915015_1_alg».proof.Proof.Gen.KernelIdeal.Value
import proofs.«144183_j44006234915015_1_alg».proof.Proof.Gen.ReferenceIdeal.Run
import proofs.«144183_j44006234915015_1_alg».proof.Proof.Gen.ReferenceIdeal.Read
import proofs.«144183_j44006234915015_1_alg».proof.Proof.Spec
import proofs.«144183_j44006234915015_1_alg».proof.Proof.RefSide
import proofs.«144183_j44006234915015_1_alg».proof.Proof.Finite
import proofs.«144183_j44006234915015_1_alg».proof.Proof.Final
import Idealize.ShloMosaic.Adequacy
import Idealize.ShloMosaic.Init

noncomputable section

namespace Cert.Proof

open Idealize.ShloMosaic Idealize.ShloMosaic.TcCoe Idealize.SL.Sem

/-- The kernel as printed runs to the end and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From finite arguments that agree, the kernel ends at `kernelForm` of them and the reference at
    `referenceForm` of them: one function, by the regrouping of the low-rank term. -/
theorem algebraic : Cert.algebraic_KernelIdeal_ReferenceIdeal := by
  intro m ρ m' ρ' hpre hagree
  refine ⟨fun c => Cert.LowRank.Final.result m c, Cert.LowRank.Final.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2]
  obtain ⟨hx, hB, hA⟩ := Cert.LowRank.Fin.finite_of_pre _ _ _ _ _ (hpre c)
  exact (Cert.ReferenceIdeal.Read.val_main_v10_eq _ _ _ _ _).trans
    ((Cert.LowRank.Ref.reference_is_spec _ _ _ _ _).trans (Cert.LowRank.forms_eq _ _ _ _ _ hx hB hA).symm)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
